-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S512x128x1 : Shape := ⟨3, ![512, 128, 1]⟩
abbrev S1x64 : Shape := ⟨2, ![1, 64]⟩
abbrev S8192x640 : Shape := ⟨2, ![8192, 640]⟩
abbrev S1x640 : Shape := ⟨2, ![1, 640]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S512x128x1 : S_.BroadcastsInDim S512x128x1 (![] : Fin 0 → Fin S512x128x1.rank)
  reducesTo_S512x128x1_S_d0_1_2 : S512x128x1.ReducesTo [0, 1, 2] S_
  bcast_S_S1x64 : S_.BroadcastsInDim S1x64 (![] : Fin 0 → Fin S1x64.rank)
  reducesTo_S1x64_S_d0_1 : S1x64.ReducesTo [0, 1] S_
  bcast_S_S8192x640 : S_.BroadcastsInDim S8192x640 (![] : Fin 0 → Fin S8192x640.rank)
  reducesTo_S8192x640_S_d0_1 : S8192x640.ReducesTo [0, 1] S_
  bcast_S_S1x640 : S_.BroadcastsInDim S1x640 (![] : Fin 0 → Fin S1x640.rank)
  reducesTo_S1x640_S_d0_1 : S1x640.ReducesTo [0, 1] S_

variable [Facts]

def fn_part1 {F : FTy → Type} [FloatOps F] (main_arg4 : FVec F S8192x640 .f32) (main_arg5 : FVec F S1x640 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S8192x640 .f32 := Host.absf main_arg4
  let main_cst_6 : FVec F S_ .f32 := constant S_ .f32 0x7F800000#32
  let main_v20 : FVec F S8192x640 .f32 := broadcastInDim S8192x640 ![] bcast_S_S8192x640 main_cst_6
  let main_v21 : IVec S8192x640 1 := cmpf .olt main_v19 main_v20
  let main_c_7 : IVec S_ 1 := constantI S_ 1 1#1
  let main_v22 : IVec S_ 1 := (fun x v => Host.reduce IntOp.andi x v reducesTo_S8192x640_S_d0_1 h_S_) main_v21 main_c_7
  let main_v23 : IVec S_ 1 := andi main_v18 main_v22
  let main_v24 : FVec F S1x640 .f32 := Host.absf main_arg5
  let main_cst_8 : FVec F S_ .f32 := constant S_ .f32 0x7F800000#32
  let main_v25 : FVec F S1x640 .f32 := broadcastInDim S1x640 ![] bcast_S_S1x640 main_cst_8
  let main_v26 : IVec S1x640 1 := cmpf .olt main_v24 main_v25
  let main_c_9 : IVec S_ 1 := constantI S_ 1 1#1
  let main_v27 : IVec S_ 1 := (fun x v => Host.reduce IntOp.andi x v reducesTo_S1x640_S_d0_1 h_S_) main_v26 main_c_9
  let main_v28 : IVec S_ 1 := andi main_v23 main_v27
  main_v28

def fn {F : FTy → Type} [FloatOps F] (main_arg0 : FVec F S128x128 .f32) (main_arg1 : FVec F S512x128x1 .f32) (main_arg2 : FVec F S1x64 .f32) (main_arg3 : FVec F S1x64 .f32) (main_arg4 : FVec F S8192x640 .f32) (main_arg5 : FVec F S1x640 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S512x128x1 .f32 := Host.absf main_arg1
  let main_cst_0 : FVec F S_ .f32 := constant S_ .f32 0x7F800000#32
  let main_v5 : FVec F S512x128x1 .f32 := broadcastInDim S512x128x1 ![] bcast_S_S512x128x1 main_cst_0
  let main_v6 : IVec S512x128x1 1 := cmpf .olt main_v4 main_v5
  let main_c_1 : IVec S_ 1 := constantI S_ 1 1#1
  let main_v7 : IVec S_ 1 := (fun x v => Host.reduce IntOp.andi x v reducesTo_S512x128x1_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v13 main_v16
-- ==== Kernel.lean ====
abbrev S128x128 : Shape := ⟨2, ![128, 128]⟩
abbrev S512x128x1 : Shape := ⟨3, ![512, 128, 1]⟩
abbrev S1x64 : Shape := ⟨2, ![1, 64]⟩
abbrev S8192x640 : Shape := ⟨2, ![8192, 640]⟩
abbrev S1x640 : Shape := ⟨2, ![1, 640]⟩
abbrev S1x1x1x64 : Shape := ⟨4, ![1, 1, 1, 64]⟩
abbrev S1x1x128x64 : Shape := ⟨4, ![1, 1, 128, 64]⟩
abbrev S1x8192 : Shape := ⟨2, ![1, 8192]⟩
abbrev S512x128 : Shape := ⟨2, ![512, 128]⟩
abbrev S2x512x640 : Shape := ⟨3, ![2, 512, 640]⟩
abbrev S1x512x640 : Shape := ⟨3, ![1, 512, 640]⟩
abbrev S512x640 : Shape := ⟨2, ![512, 640]⟩
abbrev S1x1024 : Shape := ⟨2, ![1, 1024]⟩
abbrev S1024x640 : Shape := ⟨2, ![1024, 640]⟩
abbrev S128x1024 : Shape := ⟨2, ![128, 1024]⟩
abbrev S512x1024 : Shape := ⟨2, ![512, 1024]⟩

abbrev nBuf : Space → Nat
  | .hbm => 22
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S512x128x1, .f32⟩
  | .hbm, ⟨2, _⟩ => ⟨S1x64, .f32⟩
  | .hbm, ⟨3, _⟩ => ⟨S1x64, .f32⟩
  | .hbm, ⟨4, _⟩ => ⟨S8192x640, .f32⟩
  | .hbm, ⟨5, _⟩ => ⟨S1x640, .f32⟩
  | .hbm, ⟨6, _⟩ => ⟨S128x128, .f32⟩
  | .hbm, ⟨7, _⟩ => ⟨S1x1x1x64, .f32⟩
  | .hbm, ⟨8, _⟩ => ⟨S1x1x128x64, .f32⟩
  | .hbm, ⟨9, _⟩ => ⟨S1x8192, .f32⟩
  | .hbm, ⟨10, _⟩ => ⟨S1x1x1x64, .f32⟩
  | .hbm, ⟨11, _⟩ => ⟨S1x1x128x64, .f32⟩
  | .hbm, ⟨12, _⟩ => ⟨S1x8192, .f32⟩
  | .hbm, ⟨13, _⟩ => ⟨S512x128, .f32⟩
  | .hbm, ⟨14, _⟩ => ⟨S2x512x640, .f32⟩
  | .hbm, ⟨15, _⟩ => ⟨S1x512x640, .f32⟩
  | .hbm, ⟨16, _⟩ => ⟨S512x640, .f32⟩
  | .hbm, ⟨17, _⟩ => ⟨S1x512x640, .f32⟩
  | .hbm, ⟨18, _⟩ => ⟨S512x640, .f32⟩
  | .hbm, ⟨19, _⟩ => ⟨S512x640, .f32⟩
  | .hbm, ⟨20, _⟩ => ⟨S512x640, .f32⟩
  | .hbm, ⟨21, _⟩ => ⟨S512x640, .f32⟩
  | .local _ .vmem, ⟨0, _⟩ => ⟨S512x128, .f32⟩
  | .local _ .vmem, ⟨1, _⟩ => ⟨S128x128, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x640, .f32⟩
  | .local _ .vmem, ⟨7, _⟩ => ⟨S1024x640, .f32⟩
  | .local _ .vmem, ⟨8, _⟩ => ⟨S1x512x640, .f32⟩
  | .local _ .vmem, ⟨9, _⟩ => ⟨S1x512x640, .f32⟩
  | .local _ .vmem, ⟨10, _⟩ => ⟨S512x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_15 : BitVec 32 := 0#32
  let v49 : BitVec 1 := Scalar.cmpi .eq arg1 c0_i32_15
  let v50 : BitVec 32 := Scalar.extui v49
  let c0_i32_16 : BitVec 32 := 0#32
  let v51 : BitVec 1 := Scalar.cmpi .ne v50 c0_i32_16
  v51

def k0_cond3 (i : grid0.Coords) : BitVec 1 :=
  let arg1 : BitVec 32 := BitVec.ofNat 32 (i 1).val
  let c0_i32_17 : BitVec 32 := 0#32
  let v52 : BitVec 1 := Scalar.cmpi .ne arg1 c0_i32_17
  let v53 : BitVec 32 := Scalar.extui v52
  let c0_i32_18 : BitVec 32 := 0#32
  let v54 : BitVec 1 := Scalar.cmpi .ne v53 c0_i32_18
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S128x128_S128x128_1_0 : S128x128.Transposes [1, 0] S128x128
  shapeCasts_S1x64_S1x1x1x64 : S1x64.ShapeCasts S1x1x1x64
  bcast_S1x1x1x64_S1x1x128x64_0_1_2_3 : S1x1x1x64.BroadcastsInDim S1x1x128x64 (![0, 1, 2, 3] : Fin 4 → Fin S1x1x128x64.rank)
  shapeCasts_S1x1x128x64_S1x8192 : S1x1x128x64.ShapeCasts S1x8192
  shapeCasts_S512x128x1_S512x128 : S512x128x1.ShapeCasts S512x128
  slices_S2x512x640_S1x512x640_0_0_0 : S2x512x640.Slices ![0, 0, 0] S1x512x640
  shapeCasts_S1x512x640_S512x640 : S1x512x640.ShapeCasts S512x640
  slices_S2x512x640_S1x512x640_1_0_0 : S2x512x640.Slices ![1, 0, 0] S1x512x640
  bcast_S1x640_S512x640_0_1 : S1x640.BroadcastsInDim S512x640 (![0, 1] : Fin 2 → Fin S512x640.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S128x1024_d0_w32 : S128x1024.Iotas .tc 32 [0]
  iota_S128x1024_d1_w32 : S128x1024.Iotas .tc 32 [1]
  natLt_1_32 : 1 < 32
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  inb_S1024x640_S1024x640_0_0 : ∀ a, (![0, 0] : Fin 2 → Nat) a + S1024x640.size a ≤ S1024x640.size a
  h_S1024x640 : 0 < S1024x640.numel
  shapeCasts_S512x640_S1x512x640 : S512x640.ShapeCasts S1x512x640
  inb_S1x512x640_S1x512x640_0_0_0 : ∀ a, (![0, 0, 0] : Fin 3 → Nat) a + S1x512x640.size a ≤ S1x512x640.size a
  h_S1x512x640 : 0 < S1x512x640.numel
  shapeCasts_S1x512x640_S1x512x640 : S1x512x640.ShapeCasts S1x512x640
  dot_S512x128_S128x128_S512x128_1_0_0_1_n_n_wf : DotDims.WF S512x128 S128x128 S512x128 [1] [0] [0] [1] [] []
  dot_S512x128_S128x1024_S512x1024_1_0_0_1_n_n_wf : DotDims.WF S512x128 S128x1024 S512x1024 [1] [0] [0] [1] [] []
  dot_S512x1024_S1024x640_S512x640_1_0_0_1_n_n_wf : DotDims.WF S512x1024 S1024x640 S512x640 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x640.size a ≤ S8192x640.size a
  hwx0_4 : ∀ i : grid0.Coords, EltTy.bits .f32 = 32 ∨ (Rect.block (s := S8192x640) S1024x640.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x640.size a ≤ S2x512x640.size a
  hwx0_5 : ∀ i : grid0.Coords, EltTy.bits .f32 = 32 ∨ (Rect.block (s := S2x512x640) S1x512x640.size (cc0_transform_5 i) (hinb0_5 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x640_S512x640_1_0_0_1_n_n : DotDims S512x1024 S1024x640 S512x640 where
  lhsContracting := [1]
  rhsContracting := [0]
  lhsNonContracting := [0]
  rhsNonContracting := [1]
  lhsBatch := []
  rhsBatch := []
  wf := dot_S512x1024_S1024x640_S512x640_1_0_0_1_n_n_wf

abbrev win0_0 : Pipeline.Window sig grid0 :=
  Pipeline.Window.ofSpec (Memref.whole main_call0_v7) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v8) S1x512x640.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S128x128 : Shape := ⟨2, ![128, 128]⟩
abbrev S512x128x1 : Shape := ⟨3, ![512, 128, 1]⟩
abbrev S1x64 : Shape := ⟨2, ![1, 64]⟩
abbrev S8192x640 : Shape := ⟨2, ![8192, 640]⟩
abbrev S1x640 : Shape := ⟨2, ![1, 640]⟩
abbrev S128x128x1 : Shape := ⟨3, ![128, 128, 1]⟩
abbrev S64 : Shape := ⟨1, ![64]⟩
abbrev S1x1x64 : Shape := ⟨3, ![1, 1, 64]⟩
abbrev S128x128x64 : Shape := ⟨3, ![128, 128, 64]⟩
abbrev S128x8192 : Shape := ⟨2, ![128, 8192]⟩
abbrev S1x1x1x64 : Shape := ⟨4, ![1, 1, 1, 64]⟩
abbrev S1x1x128x64 : Shape := ⟨4, ![1, 1, 128, 64]⟩
abbrev S1x8192 : Shape := ⟨2, ![1, 8192]⟩
abbrev S_ : Shape := ⟨0, ![]⟩
abbrev S512x128 : Shape := ⟨2, ![512, 128]⟩
abbrev S512x640 : Shape := ⟨2, ![512, 640]⟩
abbrev S512x8192 : Shape := ⟨2, ![512, 8192]⟩

abbrev nBuf : Space → Nat
  | .hbm => 28
  | .vmem => 6
  | .smem => 0
  | _ => 0

abbrev bufTy : (tb : Table) → Fin (tcTables nBuf tb) → BufTy
  | .hbm, ⟨0, _⟩ => ⟨S128x128, .f32⟩
  | .hbm, ⟨1, _⟩ => ⟨S512x128x1, .f32⟩
  | .hbm, ⟨2, _⟩ => ⟨S1x64, .f32⟩
  | .hbm, ⟨3, _⟩ => ⟨S1x64, .f32⟩
  | .hbm, ⟨4, _⟩ => ⟨S8192x640, .f32⟩
  | .hbm, ⟨5, _⟩ => ⟨S1x640, .f32⟩
  | .hbm, ⟨6, _⟩ => ⟨S128x128, .f32⟩
  | .hbm, ⟨7, _⟩ => ⟨S128x128x1, .f32⟩
  | .hbm, ⟨8, _⟩ => ⟨S64, .f32⟩
  | .hbm, ⟨9, _⟩ => ⟨S1x1x64, .f32⟩
  | .hbm, ⟨10, _⟩ => ⟨S128x128x64, .f32⟩
  | .hbm, ⟨11, _⟩ => ⟨S128x128x64, .f32⟩
  | .hbm, ⟨12, _⟩ => ⟨S128x128x64, .f32⟩
  | .hbm, ⟨13, _⟩ => ⟨S128x8192, .f32⟩
  | .hbm, ⟨14, _⟩ => ⟨S1x1x1x64, .f32⟩
  | .hbm, ⟨15, _⟩ => ⟨S1x1x128x64, .f32⟩
  | .hbm, ⟨16, _⟩ => ⟨S1x8192, .f32⟩
  | .hbm, ⟨17, _⟩ => ⟨S_, .i32⟩
  | .hbm, ⟨18, _⟩ => ⟨S_, .f32⟩
  | .hbm, ⟨19, _⟩ => ⟨S8192x640, .f32⟩
  | .hbm, ⟨20, _⟩ => ⟨S_, .i32⟩
  | .hbm, ⟨21, _⟩ => ⟨S_, .f32⟩
  | .hbm, ⟨22, _⟩ => ⟨S1x640, .f32⟩
  | .hbm, ⟨23, _⟩ => ⟨S512x128, .f32⟩
  | .hbm, ⟨24, _⟩ => ⟨S_, .i32⟩
  | .hbm, ⟨25, _⟩ => ⟨S_, .f32⟩
  | .hbm, ⟨26, _⟩ => ⟨S512x128, .f32⟩
  | .hbm, ⟨27, _⟩ => ⟨S512x640, .f32⟩
  | .local _ .vmem, ⟨0, _⟩ => ⟨S512x128, .f32⟩
  | .local _ .vmem, ⟨1, _⟩ => ⟨S128x8192, .f32⟩
  | .local _ .vmem, ⟨2, _⟩ => ⟨S1x8192, .f32⟩
  | .local _ .vmem, ⟨3, _⟩ => ⟨S8192x640, .f32⟩
  | .local _ .vmem, ⟨4, _⟩ => ⟨S1x640, .f32⟩
  | .local _ .vmem, ⟨5, _⟩ => ⟨S512x640, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c : Ref sig .tc := ⟨.hbm, 17, rfl⟩
abbrev main_call0_call0_v0 : Ref sig .tc := ⟨.hbm, 18, rfl⟩
abbrev main_call0_v11 : Ref sig .tc := ⟨.hbm, 19, rfl⟩
abbrev main_call0_c_0 : Ref sig .tc := ⟨.hbm, 20, rfl⟩
abbrev main_call0_call1_v0 : Ref sig .tc := ⟨.hbm, 21, rfl⟩
abbrev main_call0_v12 : Ref sig .tc := ⟨.hbm, 22, rfl⟩
abbrev main_call0_v13 : Ref sig .tc := ⟨.hbm, 23, rfl⟩
abbrev main_call0_c_1 : Ref sig .tc := ⟨.hbm, 24, rfl⟩
abbrev main_call0_call2_v0 : Ref sig .tc := ⟨.hbm, 25, rfl⟩
abbrev main_call0_v14 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S128x128_S128x128_1_0 : S128x128.Transposes [1, 0] S128x128
  bcast_S128x128_S128x128x1_0_1 : S128x128.BroadcastsInDim S128x128x1 (![0, 1] : Fin 2 → Fin S128x128x1.rank)
  shapeCasts_S1x64_S64 : S1x64.ShapeCasts S64
  bcast_S64_S1x1x64_2 : S64.BroadcastsInDim S1x1x64 (![2] : Fin 1 → Fin S1x1x64.rank)
  bcast_S128x128x1_S128x128x64_0_1_2 : S128x128x1.BroadcastsInDim S128x128x64 (![0, 1, 2] : Fin 3 → Fin S128x128x64.rank)
  bcast_S1x1x64_S128x128x64_0_1_2 : S1x1x64.BroadcastsInDim S128x128x64 (![0, 1, 2] : Fin 3 → Fin S128x128x64.rank)
  shapeCasts_S128x128x64_S128x8192 : S128x128x64.ShapeCasts S128x8192
  shapeCasts_S1x64_S1x1x1x64 : S1x64.ShapeCasts S1x1x1x64
  bcast_S1x1x1x64_S1x1x128x64_0_1_2_3 : S1x1x1x64.BroadcastsInDim S1x1x128x64 (![0, 1, 2, 3] : Fin 4 → Fin S1x1x128x64.rank)
  shapeCasts_S1x1x128x64_S1x8192 : S1x1x128x64.ShapeCasts S1x8192
  pads_S8192x640_S8192x640_000_000 : S8192x640.Pads (![0, 0] : Fin 2 → Nat) ![0, 0] ![0, 0] S8192x640
  h_S_ : 0 < S_.numel
  pads_S1x640_S1x640_000_000 : S1x640.Pads (![0, 0] : Fin 2 → Nat) ![0, 0] ![0, 0] S1x640
  shapeCasts_S512x128x1_S512x128 : S512x128x1.ShapeCasts S512x128
  pads_S512x128_S512x128_000_000 : S512x128.Pads (![0, 0] : Fin 2 → Nat) ![0, 0] ![0, 0] S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  broadcasts_S1x8192_S512x8192 : S1x8192.Broadcasts S512x8192
  inb_S8192x640_S8192x640_0_0 : ∀ a, (![0, 0] : Fin 2 → Nat) a + S8192x640.size a ≤ S8192x640.size a
  h_S8192x640 : 0 < S8192x640.numel
  shapeCasts_S8192x640_S8192x640 : S8192x640.ShapeCasts S8192x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S512x640_S512x640_0_0 : ∀ a, (![0, 0] : Fin 2 → Nat) a + S512x640.size a ≤ S512x640.size a
  h_S512x640 : 0 < S512x640.numel
  dot_S512x128_S128x8192_S512x8192_1_0_0_1_n_n_wf : DotDims.WF S512x128 S128x8192 S512x8192 [1] [0] [0] [1] [] []
  dot_S512x8192_S8192x640_S512x640_1_0_0_1_n_n_wf : DotDims.WF S512x8192 S8192x640 S512x640 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .f32 = 32 ∨ (Rect.block (s := S128x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x640.size a ≤ S8192x640.size a
  hwx0_3 : ∀ i : grid0.Coords, EltTy.bits .f32 = 32 ∨ (Rect.block (s := S8192x640) S8192x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x640.size a ≤ S512x640.size a
  hwx0_5 : ∀ i : grid0.Coords, EltTy.bits .f32 = 32 ∨ (Rect.block (s := S512x640) S512x640.size (cc0_transform_5 i) (hinb0_5 i)).WholeWords (EltTy.packing .f32)

variable [Facts₀]

def dot_S512x128_S128x8192_S512x8192_1_0_0_1_n_n : DotDims S512x128 S128x8192 S512x8192 where
  lhsContracting := [1]
  rhsContracting := [0]
  lhsNonContracting := [0]
  rhsNonContracting := [1]
  lhsBatch := []
  rhsBatch := []
  wf := dot_S512x128_S128x8192_S512x8192_1_0_0_1_n_n_wf
def dot_S512x8192_S8192x640_S512x640_1_0_0_1_n_n : DotDims S512x8192 S8192x640 S512x640 where
  lhsContracting := [1]
  rhsContracting := [0]
  lhsNonContracting := [0]
  rhsNonContracting := [1]
  lhsBatch := []
  rhsBatch := []
  wf := dot_S512x8192_S8192x640_S512x640_1_0_0_1_n_n_wf

abbrev win0_0 : Pipeline.Window sig grid0 :=
  Pipeline.Window.ofSpec (Memref.whole main_call0_v14) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S8192x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v12) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x640.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.BodyK.lean ====
import proofs.«175894_g2000004315035959_pallasbulk_646_4_alg».proof.Proof.Gen.Kernel.Frame
import proofs.«175894_g2000004315035959_pallasbulk_646_4_alg».proof.Proof.Gen.Kernel.Skeleton
import Idealize.ShloMosaic.Lib.Pipeline.Value

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## Which grid points reset and which accumulate

The grid is 2 x 4; the second coordinate k runs over a half's four chunks. At k = 0 the body recomputes the aggregate
into its scratch and stores its chunk's contribution into the output block; at k > 0 it reads the scratch back and adds its
chunk's contribution to the output block. In the linear order of the points, k = 0 is the points 0 and 4. -/

/-- The condition of the body's first branch (recompute the aggregate): k = 0, as the body computes it. -/
abbrev cond1 (i : grid0.Coords) : Prop :=
  (Scalar.cmpi .ne (Scalar.extui (Scalar.cmpi .eq (BitVec.ofNat 32 (i 1).val) 0#32)) 0#32) = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hcond3 : ∀ t : Fin cfg0.N, k0_cond3 (grid0.coords t) = 1#1 ↔ ¬ t.val % 4 = 0 :=
  (by decide +kernel : ∀ t : Fin grid0.N, k0_cond3 (grid0.coords t) = 1#1 ↔ ¬ t.val % 4 = 0)

/-- The output window is stored into at every point (one of the two stores always runs). -/
theorem live5 : ∀ t : Fin cfg0.N, cfg0.idle 5 (grid0.coords t) = false :=
  (by decide +kernel : ∀ t : Fin grid0.N, cfg0.idle 5 (grid0.coords t) = false)
theorem live5' : ∀ i : grid0.Coords, cfg0.idle 5 i = false := by decide +kernel

/-! ## Whole-buffer loads and stores -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- One store through the rectangle that is the whole buffer leaves its payload, whatever the buffer held. -/
theorem read_store_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-! ## The body's triple, at a point that resets and at a point that accumulates -/

set_option maxHeartbeats 1000000 in
/-- At k = 0: from the five input blocks, whatever the output block and the scratch hold, the body leaves the scratch at
    the aggregate and the output block at its chunk's contribution. -/
theorem runA (c : Dev nD) (i : grid0.Coords)
    (arg2 : Memref sig .tc .vmem S512x128 .f32) (harg2 : arg2.IsWhole) (arg3 : Memref sig .tc .vmem S128x128 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x640 .f32) (harg6 : arg6.IsWhole) (arg7 : Memref sig .tc .vmem S1x512x640 .f32) (harg7 : arg7.IsWhole)
    (arg8 : Memref sig .tc .vmem S512x128 .f32) (harg8 : arg8.IsWhole)
    (hc1 : cond1 i) (hc2 : k0_cond2 i = 1#1) (hc3 : ¬ k0_cond3 i = 1#1)
    (x0 : Vec F S512x128 .f32) (x1 : Vec F S128x128 .f32) (x2 x3 : Vec F S1x1024 .f32) (x4 : Vec F S1024x640 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 (k0_pay5 i (k0_pay4 x0 x1)) (k0_pay6 x2) x3 x4)
            ∗ owns (c : Thread nD τ) arg8 fullShare (k0_pay4 x0 x1)) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [read_store_whole _ _ hz3]
    dsimp only
    sl_unfold_run_names
    simp only [View.readAt_eq_ld, harg2.read_unread, harg3.read_unread, harg4.read_unread, harg5.read_unread, harg6.read_unread,
      View.ld_unit_zero (S := S512x128) hz2, View.ld_unit_zero (S := S128x128) hz2, View.ld_unit_zero (S := S1x1024) hz2,
      View.ld_unit_zero (S := S1024x640) hz2, View.readCov_unit_zero (S := S512x128) _ hz2]
  iexists _; isplitr
  swap; · iexact H8
  ipureintro
  sl_unfold_run_names
  rw [read_store_whole _ _ hz2]
  simp only [View.readAt_eq_ld, harg2.read_unread, harg3.read_unread,
    View.ld_unit_zero (S := S512x128) hz2, View.ld_unit_zero (S := S128x128) hz2]

set_option maxHeartbeats 1000000 in
/-- At k > 0: from the three chunk blocks, the output block at y and the scratch at xs, the body leaves the scratch as it
    was and the output block at y plus its chunk's contribution. The first two blocks are not read. -/
theorem runB (c : Dev nD) (i : grid0.Coords)
    (arg2 : Memref sig .tc .vmem S512x128 .f32) (harg2 : arg2.IsWhole) (arg3 : Memref sig .tc .vmem S128x128 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x640 .f32) (harg6 : arg6.IsWhole) (arg7 : Memref sig .tc .vmem S1x512x640 .f32) (harg7 : arg7.IsWhole)
    (arg8 : Memref sig .tc .vmem S512x128 .f32) (harg8 : arg8.IsWhole)
    (hc1 : ¬ cond1 i) (hc2 : ¬ k0_cond2 i = 1#1) (hc3 : k0_cond3 i = 1#1)
    (x0 : Vec F S512x128 .f32) (x1 : Vec F S128x128 .f32) (x2 x3 : Vec F S1x1024 .f32) (x4 : Vec F S1024x640 .f32)
    (y : Vec F S1x512x640 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 (k0_pay5 i xs) (k0_pay6 x2) x3 x4 y)
            ∗ owns (c : Thread nD τ) arg8 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [read_store_whole _ _ hz3]
    dsimp only
    sl_unfold_run_names
    simp only [View.readAt_eq_ld, harg4.read_unread, harg5.read_unread, harg6.read_unread, harg7.read_unread, harg8.read_unread,
      View.ld_unit_zero (S := S512x128) hz2, View.ld_unit_zero (S := S1x1024) hz2,
      View.ld_unit_zero (S := S1024x640) hz2, View.ld_unit_zero (S := S1x512x640) hz3]
  iexists _; isplitr; · ipureintro; exact harg8.read_unread _
  iexact H8

end Cert.Proof.KB

end
-- ==== Proof.RunK.lean ====
import proofs.«175894_g2000004315035959_pallasbulk_646_4_alg».proof.Proof.Gen.Kernel.Frame
import proofs.«175894_g2000004315035959_pallasbulk_646_4_alg».proof.Proof.Gen.Kernel.Skeleton
import proofs.«175894_g2000004315035959_pallasbulk_646_4_alg».proof.Proof.BodyK

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the scratch hold after each point -/

/-- After a point that resets: the scratch holds the aggregate of the point's first two blocks, the output block the
    contribution of the point's chunk. -/
def stepA (c : Dev nD) (t : Fin cfg0.N) : Vec F S1x512x640 .f32 × Vec F S512x128 .f32 :=
  (k0_pay2 (k0_pay5 (grid0.coords t) (k0_pay4 (iblk m c 0 t) (iblk m c 1 t))) (k0_pay6 (iblk m c 2 t)) (iblk m c 3 t) (iblk m c 4 t),
    k0_pay4 (iblk m c 0 t) (iblk m c 1 t))

/-- After a point that accumulates, over what the point before left: the scratch unchanged, the output block plus the
    contribution of the point's chunk. -/
def stepB (c : Dev nD) (t : Fin cfg0.N) (prev : Vec F S1x512x640 .f32 × Vec F S512x128 .f32) :
    Vec F S1x512x640 .f32 × Vec F S512x128 .f32 :=
  (k0_pay3 (k0_pay5 (grid0.coords t) prev.2) (k0_pay6 (iblk m c 2 t)) (iblk m c 3 t) (iblk m c 4 t) prev.1, prev.2)

/-- The output block's staging buffer and the scratch after the body at position n, by recursion on the position. -/
def outsAt (c : Dev nD) : (n : ℕ) → n < cfg0.N → Vec F S1x512x640 .f32 × Vec F S512x128 .f32
  | 0, hn => stepA m c ⟨0, hn⟩
  | n + 1, hn =>
    if (n + 1) % 4 = 0 then stepA m c ⟨n + 1, hn⟩
    else stepB m c ⟨n + 1, hn⟩ (outsAt c n (Nat.lt_of_succ_lt hn))

theorem outsAt_A (c : Dev nD) (t : Fin cfg0.N) (h0 : t.val % 4 = 0) : outsAt m c t.val t.isLt = stepA m c t := by
  obtain ⟨n, hn⟩ := t
  cases n with
  | zero => rfl
  | succ n => exact if_pos h0

theorem outsAt_B (c : Dev nD) (t : Fin cfg0.N) (h0 : ¬ t.val % 4 = 0) :
    outsAt m c t.val t.isLt = stepB m c t (outsAt m c (t.val - 1) (Nat.lt_of_le_of_lt (Nat.sub_le _ _) t.isLt)) := by
  obtain ⟨n, hn⟩ := t
  cases n with
  | zero => exact absurd (Nat.zero_mod _) h0
  | succ n => exact if_neg h0

/-! ## The invariant: the scratch between points -/

/-- The scratch operand as a memref. -/
abbrev scM : Memref sig .tc .vmem S512x128 .f32 := Memref.whole cc0_scratch0

/-- The class invariant with the scratch as a memref owned at some contents. -/
theorem PhiA_eq (c : Dev nD) :
    (ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before position n: at the start the class invariant (the scratch at anything); afterwards the scratch at what the
    point before left in it, and the generator register at some state. -/
def PhiS (c : Dev nD) : (n : ℕ) → n ≤ cfg0.N → sProp 𝕄
  | 0, _ => ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block and the output's at the
    accumulated contribution; the invariant carries the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point that accumulates, the output block's buffer holds what the point before left: the point is not the first,
    the block was not written back in between (that happens only after the last chunk of a half), and the window is
    stored into at every point. -/
theorem before0_5_B (c : Dev nD) (t : Fin cfg0.N) (h0 : ¬ t.val % 4 = 0) (d) :
    (dats m 0 c).before 5 t d = (outsAt m c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    live5' (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves5 (c : Dev nD) (t : Fin cfg0.N) :
    (dats m 0 c).leavesExact 5 t = owns (c : Thread nD τ) (st0_5 t) fullShare ((outsAt m c t.val t.isLt).1) := by
  unfold Dat.leavesExact; rw [live5 t, after0_5]

set_option maxHeartbeats 4000000 in
/-- The body at any point: the inputs' buffers hold their blocks; at a point that resets the invariant hands the scratch
    at anything (or at what the point before left, forgotten), at a point that accumulates at what the point before left,
    as the output block's buffer; the triple of the case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare (iblk m c 0 t) from after0_0 m c t ▸ rfl,
    show (dats m 0 c).leavesExact 1 t = owns (c : Thread nD τ) (st0_1 t) fullShare (iblk m c 1 t) from after0_1 m c t ▸ rfl,
    show (dats m 0 c).leavesExact 2 t = owns (c : Thread nD τ) (st0_2 t) fullShare (iblk m c 2 t) from after0_2 m c t ▸ rfl,
    show (dats m 0 c).leavesExact 3 t = owns (c : Thread nD τ) (st0_3 t) fullShare (iblk m c 3 t) from after0_3 m c t ▸ rfl,
    show (dats m 0 c).leavesExact 4 t = owns (c : Thread nD τ) (st0_4 t) fullShare (iblk m c 4 t) from after0_4 m c t ▸ rfl,
    leaves5]
  have hN : t.val < 8 := lt_of_lt_of_eq t.isLt (show cfg0.N = 8 from N_0)
  by_cases h0 : t.val % 4 = 0
  · rw [outsAt_A m c t h0]
    unfold stepA; dsimp only
    have hc1 := (hcond1 t).mpr h0
    have hc2 := (hcond2 t).mpr h0
    have hc3 : ¬ k0_cond3 (grid0.coords t) = 1#1 := fun h => (hcond3 t).mp h h0
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ scM (Memref.isWhole_whole _) hc1 hc2 hc3
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ scM (Memref.isWhole_whole _) hc1 hc2 hc3
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [outsAt_B m c t h0]
    simp only [before0_5_B m c t h0]
    unfold stepB; dsimp only
    have hc1 : ¬ cond1 (grid0.coords t) := fun h => h0 ((hcond1 t).mp h)
    have hc2 : ¬ k0_cond2 (grid0.coords t) = 1#1 := fun h => h0 ((hcond2 t).mp h)
    have hc3 := (hcond3 t).mpr h0
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ scM (Memref.isWhole_whole _) hc1 hc2 hc3
      (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m 0 c) (defs₀ (F := F)) Variants.none () Set.univ := fun t => by
  rw [bigSep_W0, bigSep_W0]
  exact sound_body m c t

theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates, and every final state has every array of the pipeline at what
    the proof data says and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Proof.KB

end
-- ==== Proof.Body.lean ====
import proofs.«175894_g2000004315035959_pallasbulk_646_4_alg».proof.Proof.Gen.KernelIdeal.Frame
import proofs.«175894_g2000004315035959_pallasbulk_646_4_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## Which grid points reset and which accumulate

The grid is 2 x 4; the second coordinate k runs over a half's four chunks. At k = 0 the body recomputes the aggregate
into its scratch and stores its chunk's contribution into the output block; at k > 0 it reads the scratch back and adds its
chunk's contribution to the output block. In the linear order of the points, k = 0 is the points 0 and 4. -/

/-- The condition of the body's first branch (recompute the aggregate): k = 0, as the body computes it. -/
abbrev cond1 (i : grid0.Coords) : Prop :=
  (Scalar.cmpi .ne (Scalar.extui (Scalar.cmpi .eq (BitVec.ofNat 32 (i 1).val) 0#32)) 0#32) = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hcond3 : ∀ t : Fin cfg0.N, k0_cond3 (grid0.coords t) = 1#1 ↔ ¬ t.val % 4 = 0 :=
  (by decide +kernel : ∀ t : Fin grid0.N, k0_cond3 (grid0.coords t) = 1#1 ↔ ¬ t.val % 4 = 0)

/-- The output window is stored into at every point (one of the two stores always runs). -/
theorem live5 : ∀ t : Fin cfg0.N, cfg0.idle 5 (grid0.coords t) = false :=
  (by decide +kernel : ∀ t : Fin grid0.N, cfg0.idle 5 (grid0.coords t) = false)
theorem live5' : ∀ i : grid0.Coords, cfg0.idle 5 i = false := by decide +kernel

/-! ## Whole-buffer loads and stores -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- One store through the rectangle that is the whole buffer leaves its payload, whatever the buffer held. -/
theorem read_store_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-! ## The body's triple, at a point that resets and at a point that accumulates -/

set_option maxHeartbeats 1000000 in
/-- At k = 0: from the five input blocks, whatever the output block and the scratch hold, the body leaves the scratch at
    the aggregate and the output block at its chunk's contribution. -/
theorem runA (c : Dev nD) (i : grid0.Coords)
    (arg2 : Memref sig .tc .vmem S512x128 .f32) (harg2 : arg2.IsWhole) (arg3 : Memref sig .tc .vmem S128x128 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x640 .f32) (harg6 : arg6.IsWhole) (arg7 : Memref sig .tc .vmem S1x512x640 .f32) (harg7 : arg7.IsWhole)
    (arg8 : Memref sig .tc .vmem S512x128 .f32) (harg8 : arg8.IsWhole)
    (hc1 : cond1 i) (hc2 : k0_cond2 i = 1#1) (hc3 : ¬ k0_cond3 i = 1#1)
    (x0 : Vec F S512x128 .f32) (x1 : Vec F S128x128 .f32) (x2 x3 : Vec F S1x1024 .f32) (x4 : Vec F S1024x640 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay2 (k0_pay5 i (k0_pay4 x0 x1)) (k0_pay6 x2) x3 x4)
            ∗ owns (c : Thread nD τ) arg8 fullShare (k0_pay4 x0 x1)) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [read_store_whole _ _ hz3]
    dsimp only
    sl_unfold_run_names
    simp only [View.readAt_eq_ld, harg2.read_unread, harg3.read_unread, harg4.read_unread, harg5.read_unread, harg6.read_unread,
      View.ld_unit_zero (S := S512x128) hz2, View.ld_unit_zero (S := S128x128) hz2, View.ld_unit_zero (S := S1x1024) hz2,
      View.ld_unit_zero (S := S1024x640) hz2, View.readCov_unit_zero (S := S512x128) _ hz2]
  iexists _; isplitr
  swap; · iexact H8
  ipureintro
  sl_unfold_run_names
  rw [read_store_whole _ _ hz2]
  simp only [View.readAt_eq_ld, harg2.read_unread, harg3.read_unread,
    View.ld_unit_zero (S := S512x128) hz2, View.ld_unit_zero (S := S128x128) hz2]

set_option maxHeartbeats 1000000 in
/-- At k > 0: from the three chunk blocks, the output block at y and the scratch at xs, the body leaves the scratch as it
    was and the output block at y plus its chunk's contribution. The first two blocks are not read. -/
theorem runB (c : Dev nD) (i : grid0.Coords)
    (arg2 : Memref sig .tc .vmem S512x128 .f32) (harg2 : arg2.IsWhole) (arg3 : Memref sig .tc .vmem S128x128 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x640 .f32) (harg6 : arg6.IsWhole) (arg7 : Memref sig .tc .vmem S1x512x640 .f32) (harg7 : arg7.IsWhole)
    (arg8 : Memref sig .tc .vmem S512x128 .f32) (harg8 : arg8.IsWhole)
    (hc1 : ¬ cond1 i) (hc2 : ¬ k0_cond2 i = 1#1) (hc3 : k0_cond3 i = 1#1)
    (x0 : Vec F S512x128 .f32) (x1 : Vec F S128x128 .f32) (x2 x3 : Vec F S1x1024 .f32) (x4 : Vec F S1024x640 .f32)
    (y : Vec F S1x512x640 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 (k0_pay5 i xs) (k0_pay6 x2) x3 x4 y)
            ∗ owns (c : Thread nD τ) arg8 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [read_store_whole _ _ hz3]
    dsimp only
    sl_unfold_run_names
    simp only [View.readAt_eq_ld, harg4.read_unread, harg5.read_unread, harg6.read_unread, harg7.read_unread, harg8.read_unread,
      View.ld_unit_zero (S := S512x128) hz2, View.ld_unit_zero (S := S1x1024) hz2,
      View.ld_unit_zero (S := S1024x640) hz2, View.ld_unit_zero (S := S1x512x640) hz3]
  iexists _; isplitr; · ipureintro; exact harg8.read_unread _
  iexact H8

end Cert.Proof.KI

end
-- ==== Proof.Run.lean ====
import proofs.«175894_g2000004315035959_pallasbulk_646_4_alg».proof.Proof.Gen.KernelIdeal.Frame
import proofs.«175894_g2000004315035959_pallasbulk_646_4_alg».proof.Proof.Gen.KernelIdeal.Skeleton
import proofs.«175894_g2000004315035959_pallasbulk_646_4_alg».proof.Proof.Body

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the scratch hold after each point -/

/-- After a point that resets: the scratch holds the aggregate of the point's first two blocks, the output block the
    contribution of the point's chunk. -/
def stepA (c : Dev nD) (t : Fin cfg0.N) : Vec F S1x512x640 .f32 × Vec F S512x128 .f32 :=
  (k0_pay2 (k0_pay5 (grid0.coords t) (k0_pay4 (iblk m c 0 t) (iblk m c 1 t))) (k0_pay6 (iblk m c 2 t)) (iblk m c 3 t) (iblk m c 4 t),
    k0_pay4 (iblk m c 0 t) (iblk m c 1 t))

/-- After a point that accumulates, over what the point before left: the scratch unchanged, the output block plus the
    contribution of the point's chunk. -/
def stepB (c : Dev nD) (t : Fin cfg0.N) (prev : Vec F S1x512x640 .f32 × Vec F S512x128 .f32) :
    Vec F S1x512x640 .f32 × Vec F S512x128 .f32 :=
  (k0_pay3 (k0_pay5 (grid0.coords t) prev.2) (k0_pay6 (iblk m c 2 t)) (iblk m c 3 t) (iblk m c 4 t) prev.1, prev.2)

/-- The output block's staging buffer and the scratch after the body at position n, by recursion on the position. -/
def outsAt (c : Dev nD) : (n : ℕ) → n < cfg0.N → Vec F S1x512x640 .f32 × Vec F S512x128 .f32
  | 0, hn => stepA m c ⟨0, hn⟩
  | n + 1, hn =>
    if (n + 1) % 4 = 0 then stepA m c ⟨n + 1, hn⟩
    else stepB m c ⟨n + 1, hn⟩ (outsAt c n (Nat.lt_of_succ_lt hn))

theorem outsAt_A (c : Dev nD) (t : Fin cfg0.N) (h0 : t.val % 4 = 0) : outsAt m c t.val t.isLt = stepA m c t := by
  obtain ⟨n, hn⟩ := t
  cases n with
  | zero => rfl
  | succ n => exact if_pos h0

theorem outsAt_B (c : Dev nD) (t : Fin cfg0.N) (h0 : ¬ t.val % 4 = 0) :
    outsAt m c t.val t.isLt = stepB m c t (outsAt m c (t.val - 1) (Nat.lt_of_le_of_lt (Nat.sub_le _ _) t.isLt)) := by
  obtain ⟨n, hn⟩ := t
  cases n with
  | zero => exact absurd (Nat.zero_mod _) h0
  | succ n => exact if_neg h0

/-! ## The invariant: the scratch between points -/

/-- The scratch operand as a memref. -/
abbrev scM : Memref sig .tc .vmem S512x128 .f32 := Memref.whole cc0_scratch0

/-- The class invariant with the scratch as a memref owned at some contents. -/
theorem PhiA_eq (c : Dev nD) :
    (ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before position n: at the start the class invariant (the scratch at anything); afterwards the scratch at what the
    point before left in it, and the generator register at some state. -/
def PhiS (c : Dev nD) : (n : ℕ) → n ≤ cfg0.N → sProp 𝕄
  | 0, _ => ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block and the output's at the
    accumulated contribution; the invariant carries the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point that accumulates, the output block's buffer holds what the point before left: the point is not the first,
    the block was not written back in between (that happens only after the last chunk of a half), and the window is
    stored into at every point. -/
theorem before0_5_B (c : Dev nD) (t : Fin cfg0.N) (h0 : ¬ t.val % 4 = 0) (d) :
    (dats m 0 c).before 5 t d = (outsAt m c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    live5' (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves5 (c : Dev nD) (t : Fin cfg0.N) :
    (dats m 0 c).leavesExact 5 t = owns (c : Thread nD τ) (st0_5 t) fullShare ((outsAt m c t.val t.isLt).1) := by
  unfold Dat.leavesExact; rw [live5 t, after0_5]

set_option maxHeartbeats 4000000 in
/-- The body at any point: the inputs' buffers hold their blocks; at a point that resets the invariant hands the scratch
    at anything (or at what the point before left, forgotten), at a point that accumulates at what the point before left,
    as the output block's buffer; the triple of the case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare (iblk m c 0 t) from after0_0 m c t ▸ rfl,
    show (dats m 0 c).leavesExact 1 t = owns (c : Thread nD τ) (st0_1 t) fullShare (iblk m c 1 t) from after0_1 m c t ▸ rfl,
    show (dats m 0 c).leavesExact 2 t = owns (c : Thread nD τ) (st0_2 t) fullShare (iblk m c 2 t) from after0_2 m c t ▸ rfl,
    show (dats m 0 c).leavesExact 3 t = owns (c : Thread nD τ) (st0_3 t) fullShare (iblk m c 3 t) from after0_3 m c t ▸ rfl,
    show (dats m 0 c).leavesExact 4 t = owns (c : Thread nD τ) (st0_4 t) fullShare (iblk m c 4 t) from after0_4 m c t ▸ rfl,
    leaves5]
  have hN : t.val < 8 := lt_of_lt_of_eq t.isLt (show cfg0.N = 8 from N_0)
  by_cases h0 : t.val % 4 = 0
  · rw [outsAt_A m c t h0]
    unfold stepA; dsimp only
    have hc1 := (hcond1 t).mpr h0
    have hc2 := (hcond2 t).mpr h0
    have hc3 : ¬ k0_cond3 (grid0.coords t) = 1#1 := fun h => (hcond3 t).mp h h0
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ scM (Memref.isWhole_whole _) hc1 hc2 hc3
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ scM (Memref.isWhole_whole _) hc1 hc2 hc3
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [outsAt_B m c t h0]
    simp only [before0_5_B m c t h0]
    unfold stepB; dsimp only
    have hc1 : ¬ cond1 (grid0.coords t) := fun h => h0 ((hcond1 t).mp h)
    have hc2 : ¬ k0_cond2 (grid0.coords t) = 1#1 := fun h => h0 ((hcond2 t).mp h)
    have hc3 := (hcond3 t).mpr h0
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ scM (Memref.isWhole_whole _) hc1 hc2 hc3
      (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m 0 c) (defs₀ (F := F)) Variants.none () Set.univ := fun t => by
  rw [bigSep_W0, bigSep_W0]
  exact sound_body m c t

theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates, and every final state has every array of the pipeline at what
    the proof data says and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Proof.KI

end
-- ==== Proof.Spec.lean ====
/-
  The two programs as functions of the argument arrays, entry by entry, on the extended reals.

  A graph-convolution layer followed by a linear layer, for 512 graphs that share one normalised adjacency
  A (128 nodes), one input feature per node (X), 64 hidden features per node (weights W1, bias B1) and 640
  outputs (W2 over the 128 * 64 = 8192 hidden units laid out node-major, bias B2).

  Hidden unit g belongs to node g / 64 and feature g % 64. Both programs compute, for graph b and output y,
      sum over g of relu(h b g) * W2 g y  +  B2 y,
  and differ in how h b g is arranged and in how the sum over g is grouped:
  * one program first aggregates, agg b n = sum over j of X b j * A n j, then scales: agg b n * W1 f + B1 f;
    it cuts the 8192 hidden units into 8 consecutive chunks of 1024, sums each chunk, adds chunks 0..3 and
    chunks 4..7 from left to right, then adds the two halves and the bias;
  * the other folds the weight into the adjacency first: sum over j of X b j * (A n j * W1 f) + B1 f, and takes
    the sum over all 8192 hidden units at once.
-/
import Idealize.ShloMosaic.PureOps.Ideal
import Idealize.ShloMosaic.Lib.ValueIdx

noncomputable section

open scoped BigOperators

namespace Cert.Spec

open Idealize.ShloMosaic Idealize.ShloMosaic.ValueIdx

/-- The shapes of the six argument arrays and of the result. -/
abbrev SA : Shape := ⟨2, ![128, 128]⟩
abbrev SX : Shape := ⟨3, ![512, 128, 1]⟩
abbrev SW1 : Shape := ⟨2, ![1, 64]⟩
abbrev SW2 : Shape := ⟨2, ![8192, 640]⟩
abbrev SB2 : Shape := ⟨2, ![1, 640]⟩
abbrev SO : Shape := ⟨2, ![512, 640]⟩

/-- The node of hidden unit g. -/
def nodeOf (g : Fin 8192) : Fin 128 := ⟨g.val / 64, by have := g.isLt; omega⟩
/-- The feature of hidden unit g. -/
def featOf (g : Fin 8192) : Fin 64 := ⟨g.val % 64, by omega⟩
/-- Hidden unit j of chunk kg: the chunks are consecutive runs of 1024 hidden units. -/
def hidIdx (kg : Fin 8) (j : Fin 1024) : Fin 8192 := ⟨kg.val * 1024 + j.val, by have := kg.isLt; have := j.isLt; omega⟩
/-- Chunk k of half c: each half holds four consecutive chunks. -/
def chunkOf (c : Fin 2) (k : Fin 4) : Fin 8 := ⟨c.val * 4 + k.val, by have := c.isLt; have := k.isLt; omega⟩

variable (A : FVec Ideal SA .f32) (X : FVec Ideal SX .f32) (W1 B1 : FVec Ideal SW1 .f32)
  (W2 : FVec Ideal SW2 .f32) (B2 : FVec Ideal SB2 .f32)

/-- The aggregated input of node n in graph b: row n of the adjacency applied to the graph's node inputs. -/
def agg (b : Fin 512) (n : Fin 128) : EReal := ∑ j : Fin 128, X (ix3 b j 0) * A (ix2 n j)

/-- Hidden unit g of graph b, aggregate first and scale after. -/
def hidK (b : Fin 512) (g : Fin 8192) : EReal :=
  max (agg A X b (nodeOf g) * W1 (ix2 0 (featOf g)) + B1 (ix2 0 (featOf g))) 0

/-- Hidden unit g of graph b, the weight folded into the adjacency first. -/
def hidR (b : Fin 512) (g : Fin 8192) : EReal :=
  max ((∑ j : Fin 128, X (ix3 b j 0) * (A (ix2 (nodeOf g) j) * W1 (ix2 0 (featOf g)))) + B1 (ix2 0 (featOf g))) 0

/-- The result with the sum over all hidden units taken at once. -/
def gref (b : Fin 512) (y : Fin 640) : EReal :=
  (∑ g : Fin 8192, hidR A X W1 B1 b g * W2 (ix2 g y)) + B2 (ix2 0 y)

/-- The same as an array. -/
def Gref : FVec Ideal SO .f32 := fun i => gref A X W1 B1 W2 B2 (i 0) (i 1)

/-- The contribution of chunk kg of the hidden units to output y of graph b. -/
def chunk (kg : Fin 8) (b : Fin 512) (y : Fin 640) : EReal :=
  ∑ j : Fin 1024, hidK A X W1 B1 b (hidIdx kg j) * W2 (ix2 (hidIdx kg j) y)

/-- Half c: its four chunks added from left to right. -/
def part (c : Fin 2) (b : Fin 512) (y : Fin 640) : EReal :=
  ((chunk A X W1 B1 W2 (chunkOf c 0) b y + chunk A X W1 B1 W2 (chunkOf c 1) b y)
    + chunk A X W1 B1 W2 (chunkOf c 2) b y) + chunk A X W1 B1 W2 (chunkOf c 3) b y

/-- The result chunk by chunk: the two halves, then the bias. -/
def gker (b : Fin 512) (y : Fin 640) : EReal :=
  (part A X W1 B1 W2 0 b y + part A X W1 B1 W2 1 b y) + B2 (ix2 0 y)

/-- The same as an array. -/
def Gker : FVec Ideal SO .f32 := fun i => gker A X W1 B1 W2 B2 (i 0) (i 1)

end Cert.Spec

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KerPay.lean ====
/-
  What the kernel body computes, read at an entry on the extended reals: the aggregate (the node inputs times the transposed
  adjacency), and one chunk's contribution to the output (the aggregate replicated over the chunk's hidden units by a
  zero-one matrix, scaled, shifted, clipped at zero, times the chunk's rows of the second weight).
-/
import proofs.«175894_g2000004315035959_pallasbulk_646_4_alg».proof.Proof.Gen.KernelIdeal.Skeleton
import proofs.«175894_g2000004315035959_pallasbulk_646_4_alg».proof.Proof.Spec
import proofs.«175894_g2000004315035959_pallasbulk_646_4_alg».proof.Proof.LibDot
import proofs.«175894_g2000004315035959_pallasbulk_646_4_alg».proof.Proof.LibBlockSum
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.Proof.KerPay

open Cert.KernelIdeal Cert.KernelIdeal.Gen
open Idealize.ShloMosaic Idealize.ShloMosaic.ValueIdx

/-- The chunk of hidden units a grid point works on: four chunks per value of the first grid coordinate. -/
def kgOf (i : grid0.Coords) : Fin 8 :=
  ⟨(i 0).val * 4 + (i 1).val, by
    have h0 : (i 0).val < 2 := (i 0).isLt
    have h1 : (i 1).val < 4 := (i 1).isLt
    omega⟩

/-! ## Words: the floor division of a small non-negative word by 64 -/

/-- Floor division of a word by 64, written as the truncating quotient with a correction: one is taken off when the
    operands' signs differ and the remainder is not zero. -/
def fdiv64 (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- A word below 2^31 divided by 64 as signed words: no corner is met and the quotient is the quotient of the values. -/
theorem toNat_divsi_64 (w : BitVec 32) (hw : w.toNat < 2 ^ 31) : (IntOp.divsi .vector w 64#32).toNat = w.toNat / 64 := by
  have hcorner : ¬ IntOp.SDivCorner w 64#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (64#32 : BitVec 32).msb = false from by decide, BitVec.udiv_eq,
    BitVec.toNat_udiv, BitVec.toNat_ofNat]

/-- A conjunction of two bits whose first is zero is not one. -/
theorem andi_ne_one_of_left (x y : BitVec 1) (h : x = 0#1) : IntOp.andi x y ≠ 1#1 := by
  subst h
  rcases BitVec.eq_zero_or_eq_one y with rfl | rfl <;> decide

/-- For a word below 2^31 the correction never fires: the word is zero (then the remainder is zero) or positive (then
    the signs agree). So the floor division is the quotient of the values. -/
theorem toNat_fdiv64 (w : BitVec 32) (hw : w.toNat < 2 ^ 31) : (fdiv64 w).toNat = w.toNat / 64 := by
  unfold fdiv64
  rw [Scalar.select, if_neg, toNat_divsi_64 w hw]
  by_cases h0 : w.toNat = 0
  · have hw0 : w = 0#32 := BitVec.eq_of_toNat_eq h0
    subst hw0
    decide
  · have hpos : IntOp.cmpi .sgt w 0#32 = 1#1 :=
      (StableHlo.Predicate.sgt_iff_toNat hw (by decide)).mpr (by
        show (0#32 : BitVec 32).toNat < w.toNat
        rw [show (0#32 : BitVec 32).toNat = 0 from rfl]; omega)
    have hneg : IntOp.cmpi .slt w 0#32 = 0#1 := by
      apply eq_zero_of_ne_one
      intro h
      have := (StableHlo.Predicate.slt_iff_toNat hw (by decide)).mp h
      rw [show (0#32 : BitVec 32).toNat = 0 from rfl] at this
      omega
    apply andi_ne_one_of_left
    rw [hpos, hneg]
    decide

/-! ## The zero-one matrix that replicates a node's aggregate over the node's hidden units -/

/-- The word of the first hidden unit of the chunk of grid point i. -/
def chunkWord (i : grid0.Coords) : BitVec 32 :=
  Scalar.muli (Scalar.addi (Scalar.muli (BitVec.ofNat 32 (i 0).val) 4#32) (BitVec.ofNat 32 (i 1).val)) 1024#32

/-- That word is 1024 times the chunk's number. -/
theorem chunkWord_eq (i : grid0.Coords) : chunkWord i = BitVec.ofNat 32 ((kgOf i).val * 1024) := by
  have h0 : (i 0).val < 2 := (i 0).isLt
  have h1 : (i 1).val < 4 := (i 1).isLt
  apply BitVec.eq_of_toNat_eq
  show ((BitVec.ofNat 32 (i 0).val * 4#32 + BitVec.ofNat 32 (i 1).val) * 1024#32).toNat = _
  show _ = (BitVec.ofNat 32 (((i 0).val * 4 + (i 1).val) * 1024)).toNat
  simp only [BitVec.toNat_mul, BitVec.toNat_add, BitVec.toNat_ofNat]
  omega

/-- Entry (n, j) of the matrix, on words: the comparison of the node of hidden unit kg * 1024 + j with n, widened and
    read as a real, is one when they agree and zero otherwise. -/
theorem entry_word (kg : Fin 8) (n : Fin 128) (j : Fin 1024) :
    Scalar.sitofp (F := Ideal) .f32
        ((IntOp.cmpi .eq (fdiv64 (IntOp.addi (BitVec.ofNat 32 (kg.val * 1024)) (BitVec.ofNat 32 j.val)))
          (BitVec.ofNat 32 n.val)).setWidth 32)
      = if (kg.val * 1024 + j.val) / 64 = n.val then (1 : EReal) else 0 := by
  have hk := kg.isLt
  have hj := j.isLt
  have hn := n.isLt
  have hsum : (IntOp.addi (BitVec.ofNat 32 (kg.val * 1024)) (BitVec.ofNat 32 j.val)).toNat = kg.val * 1024 + j.val := by
    show (BitVec.ofNat 32 (kg.val * 1024) + BitVec.ofNat 32 j.val).toNat = _
    rw [BitVec.toNat_add, BitVec.toNat_ofNat, BitVec.toNat_ofNat]
    omega
  have hq := toNat_fdiv64 _ (show (IntOp.addi (BitVec.ofNat 32 (kg.val * 1024)) (BitVec.ofNat 32 j.val)).toNat < 2 ^ 31 by
    rw [hsum]; omega)
  rw [hsum] at hq
  rw [Ideal.scalar_sitofp_def]
  by_cases h : (kg.val * 1024 + j.val) / 64 = n.val
  · have e : fdiv64 (IntOp.addi (BitVec.ofNat 32 (kg.val * 1024)) (BitVec.ofNat 32 j.val)) = BitVec.ofNat 32 n.val := by
      apply BitVec.eq_of_toNat_eq
      rw [hq, BitVec.toNat_ofNat]
      omega
    rw [StableHlo.Predicate.cmpi_eq_iff.mpr e, if_pos h]
    rw [show ((1#1 : BitVec 1).setWidth 32).toInt = 1 from by decide]
    norm_num
  · have e : IntOp.cmpi .eq (fdiv64 (IntOp.addi (BitVec.ofNat 32 (kg.val * 1024)) (BitVec.ofNat 32 j.val)))
        (BitVec.ofNat 32 n.val) = 0#1 := by
      apply eq_zero_of_ne_one
      intro hc
      have e' := congrArg BitVec.toNat (StableHlo.Predicate.cmpi_eq_iff.mp hc)
      rw [hq, BitVec.toNat_ofNat] at e'
      omega
    rw [e, if_neg h]
    rw [show ((0#1 : BitVec 1).setWidth 32).toInt = 0 from by decide]
    norm_num

/-- A row times a zero-one column with its one at n0 picks the row's entry at n0. -/
theorem sum_mul_indicator (s : Vec Ideal S512x128 .f32) (R : FVec Ideal S128x1024 .f32) (b : Fin 512) (j : Fin 1024)
    (n0 : Fin 128) (hR : ∀ n : Fin 128, R (ix2 n j) = if n0.val = n.val then (1 : EReal) else 0) :
    ∑ n : Fin 128, s (ix2 b n) * R (ix2 n j) = s (ix2 b n0) := by
  rw [Finset.sum_eq_single n0]
  · rw [hR, if_pos rfl, mul_one]
  · intro n _ hne
    rw [hR, if_neg (fun h => hne (Fin.ext h.symm)), mul_zero]
  · intro h
    exact absurd (Finset.mem_univ _) h

/-- The replicated aggregate at (b, j): the aggregate of the node of hidden unit j of the chunk. -/
theorem pay5_apply (i : grid0.Coords) (s : Vec Ideal S512x128 .f32) (b : Fin 512) (j : Fin 1024) :
    k0_pay5 (F := Ideal) i s (ix2 b j) = s (ix2 b (Cert.Spec.nodeOf (Cert.Spec.hidIdx (kgOf i) j))) := by
  unfold k0_pay5
  dsimp only
  refine (Cert.LibDot.matmul_zero_apply dot_S512x128_S128x1024_S512x1024_1_0_0_1_n_n rfl rfl rfl rfl rfl rfl none _ _ b j).trans ?_
  refine sum_mul_indicator s _ b j _ fun n => ?_
  show Scalar.sitofp (F := Ideal) .f32
      ((IntOp.cmpi .eq (fdiv64 (IntOp.addi (chunkWord i) (iota .tc S128x1024 32 [1] iota_S128x1024_d1_w32 (ix2 n j))))
        (iota .tc S128x1024 32 [0] iota_S128x1024_d0_w32 (ix2 n j))).setWidth 32) = _
  rw [iota_single_apply, iota_single_apply, chunkWord_eq]
  rw [entry_word (kgOf i) n j]
  rfl

/-- A row broadcast over the 512 rows reads the row. -/
theorem pay6_apply (x2 : Vec Ideal S1x1024 .f32) (b : Fin 512) (j : Fin 1024) :
    k0_pay6 (F := Ideal) x2 (ix2 b j) = x2 (ix2 0 j) := by
  unfold k0_pay6
  exact broadcastTo_1b_ab_apply x2 _ b j

/-- The aggregate at an entry: row b of the first operand against column n of the second. -/
theorem pay4_apply (x0 : Vec Ideal S512x128 .f32) (x1 : Vec Ideal S128x128 .f32) (b : Fin 512) (n : Fin 128) :
    k0_pay4 (F := Ideal) x0 x1 (ix2 b n) = ∑ j : Fin 128, x0 (ix2 b j) * x1 (ix2 j n) := by
  unfold k0_pay4
  rw [shapeCast_self, shapeCast_self, shapeCast_self]
  exact Cert.LibDot.matmul_zero_apply dot_S512x128_S128x128_S512x128_1_0_0_1_n_n rfl rfl rfl rfl rfl rfl none x0 x1 b n

/-- One chunk's contribution at an entry. -/
theorem contrib_apply (i : grid0.Coords) (s : Vec Ideal S512x128 .f32) (x2 x3 : Vec Ideal S1x1024 .f32)
    (x4 : Vec Ideal S1024x640 .f32) (b : Fin 512) (y : Fin 640) :
    k0_pay1 (F := Ideal) (k0_pay5 i s) (k0_pay6 x2) x3 x4 (ix2 b y)
      = ∑ j : Fin 1024, max (s (ix2 b (Cert.Spec.nodeOf (Cert.Spec.hidIdx (kgOf i) j))) * x2 (ix2 0 j) + x3 (ix2 0 j)) 0
          * x4 (ix2 j y) := by
  unfold k0_pay1
  refine (Cert.LibDot.matmul_zero_apply dot_S512x1024_S1024x640_S512x640_1_0_0_1_n_n rfl rfl rfl rfl rfl rfl none _ x4 b y).trans ?_
  refine Finset.sum_congr rfl fun j _ => ?_
  rw [maximumf_apply, addf_apply, mulf_apply, broadcast_apply, pay5_apply, pay6_apply, broadcastTo_1b_ab_apply]
  rw [show (Scalar.ofBits (F := Ideal) .f32 0x00000000#32) = (0 : EReal) from Ideal.ofBits_zero_f32]

end Cert.Proof.KerPay

end
-- ==== Proof.KerBlocks.lean ====
/-
  The windows' blocks read at an entry, and the call's output array from its two written-back blocks.

  The first two windows' block is the whole array at every point. The next three windows move along the hidden units:
  at point t (the points in linear order are the chunks in order) the block is hidden units 1024 t to 1024 t + 1023.
  The output window's block is half t / 4 of the output array; it is written back after the last chunk of each half
  (points 3 and 7), so the array ends with half c at what point 4 c + 3 left in the block.
-/
import proofs.«175894_g2000004315035959_pallasbulk_646_4_alg».proof.Proof.Gen.KernelIdeal.Frame
import proofs.«175894_g2000004315035959_pallasbulk_646_4_alg».proof.Proof.Spec
import Idealize.ShloMosaic.Lib.Pipeline.Value

set_option maxRecDepth 16384

noncomputable section

namespace Cert.Proof.KerBlocks

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The chunk of point t: the points in linear order are the chunks in order. -/
def tk (t : Fin cfg0.N) : Fin 8 := ⟨t.val, lt_of_lt_of_eq t.isLt N_0⟩

/-- The half of point t. -/
def th (t : Fin cfg0.N) : Fin 2 := ⟨t.val / 4, by have := lt_of_lt_of_eq t.isLt N_0; omega⟩

/-- The block indices of the six windows, decided once over the eight points: the first two windows never move,
    windows 2 and 3 sit at chunk t on their second axis, window 4 at chunk t on its first axis, and the
    output window at half t / 4 on its first axis. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = t.val ∧ win0_4.index t (1 : Fin 2) = 0
    ∧ win0_5.index t (0 : Fin 3) = t.val / 4 ∧ win0_5.index t (1 : Fin 3) = 0 ∧ win0_5.index t (2 : Fin 3) = 0 :=
  (by decide +kernel : ∀ t : Fin grid0.N, _)

theorem iblk0_apply (c : Dev nD) (t : Fin cfg0.N) (b : Fin 512) (j : Fin 128) :
    (iblk m c 0 t : Vec Ideal S512x128 .f32) (ix2 b j) = (V m c main_call0_v7 : Vec Ideal S512x128 .f32) (ix2 b j) := by
  obtain ⟨e0, e1, -⟩ := idx_facts t
  unfold iblk
  rw [View.read_apply]
  show V m c main_call0_v7 (((cfg0.win 0).blk t).view.emb (ix2 b j)) = V m c main_call0_v7 (ix2 b j)
  congr 1
  funext a
  apply Fin.ext
  match a with
  | ⟨0, _⟩ => show win0_0.index t (0 : Fin 2) * 512 + 1 * b.val = b.val; rw [e0]; omega
  | ⟨1, _⟩ => show win0_0.index t (1 : Fin 2) * 128 + 1 * j.val = j.val; rw [e1]; omega

theorem iblk1_apply (c : Dev nD) (t : Fin cfg0.N) (j n : Fin 128) :
    (iblk m c 1 t : Vec Ideal S128x128 .f32) (ix2 j n) = (V m c main_call0_v0 : Vec Ideal S128x128 .f32) (ix2 j n) := by
  obtain ⟨-, -, e0, e1, -⟩ := idx_facts t
  unfold iblk
  rw [View.read_apply]
  show V m c main_call0_v0 (((cfg0.win 1).blk t).view.emb (ix2 j n)) = V m c main_call0_v0 (ix2 j n)
  congr 1
  funext a
  apply Fin.ext
  match a with
  | ⟨0, _⟩ => show win0_1.index t (0 : Fin 2) * 128 + 1 * j.val = j.val; rw [e0]; omega
  | ⟨1, _⟩ => show win0_1.index t (1 : Fin 2) * 128 + 1 * n.val = n.val; rw [e1]; omega

theorem iblk2_apply (c : Dev nD) (t : Fin cfg0.N) (j : Fin 1024) :
    (iblk m c 2 t : Vec Ideal S1x1024 .f32) (ix2 0 j)
      = (V m c main_call0_v3 : Vec Ideal S1x8192 .f32) (ix2 0 (Cert.Spec.hidIdx (tk t) j)) := by
  obtain ⟨-, -, -, -, e0, e1, -⟩ := idx_facts t
  unfold iblk
  rw [View.read_apply]
  show V m c main_call0_v3 (((cfg0.win 2).blk t).view.emb (ix2 0 j)) = V m c main_call0_v3 (ix2 0 (Cert.Spec.hidIdx (tk t) j))
  congr 1
  funext a
  apply Fin.ext
  match a with
  | ⟨0, _⟩ => show win0_2.index t (0 : Fin 2) * 1 + 1 * 0 = 0; rw [e0]
  | ⟨1, _⟩ => show win0_2.index t (1 : Fin 2) * 1024 + 1 * j.val = t.val * 1024 + j.val; rw [e1]; omega

theorem iblk3_apply (c : Dev nD) (t : Fin cfg0.N) (j : Fin 1024) :
    (iblk m c 3 t : Vec Ideal S1x1024 .f32) (ix2 0 j)
      = (V m c main_call0_v6 : Vec Ideal S1x8192 .f32) (ix2 0 (Cert.Spec.hidIdx (tk t) j)) := by
  obtain ⟨-, -, -, -, -, -, e0, e1, -⟩ := idx_facts t
  unfold iblk
  rw [View.read_apply]
  show V m c main_call0_v6 (((cfg0.win 3).blk t).view.emb (ix2 0 j)) = V m c main_call0_v6 (ix2 0 (Cert.Spec.hidIdx (tk t) j))
  congr 1
  funext a
  apply Fin.ext
  match a with
  | ⟨0, _⟩ => show win0_3.index t (0 : Fin 2) * 1 + 1 * 0 = 0; rw [e0]
  | ⟨1, _⟩ => show win0_3.index t (1 : Fin 2) * 1024 + 1 * j.val = t.val * 1024 + j.val; rw [e1]; omega

theorem iblk4_apply (c : Dev nD) (t : Fin cfg0.N) (j : Fin 1024) (y : Fin 640) :
    (iblk m c 4 t : Vec Ideal S1024x640 .f32) (ix2 j y)
      = (V m c main_arg4 : Vec Ideal S8192x640 .f32) (ix2 (Cert.Spec.hidIdx (tk t) j) y) := by
  obtain ⟨-, -, -, -, -, -, -, -, e0, e1, -⟩ := idx_facts t
  unfold iblk
  rw [View.read_apply]
  show V m c main_arg4 (((cfg0.win 4).blk t).view.emb (ix2 j y)) = V m c main_arg4 (ix2 (Cert.Spec.hidIdx (tk t) j) y)
  congr 1
  funext a
  apply Fin.ext
  match a with
  | ⟨0, _⟩ => show win0_4.index t (0 : Fin 2) * 1024 + 1 * j.val = t.val * 1024 + j.val; rw [e0]; omega
  | ⟨1, _⟩ => show win0_4.index t (1 : Fin 2) * 640 + 1 * y.val = y.val; rw [e1]; omega

/-- What the body left in the output block at a point that writes back, at any index of the block: the block has
    one slab, so the index's first coordinate is 0 and the hypothesis on the block applies. -/
theorem after5_at {c : Dev nD} (dat : Dat τ (Elt Ideal) Unit ℕ (UR sig nD τ) ℕ cfg0 c)
    (G : Fin 2 → Fin 512 → Fin 640 → EReal)
    (h : ∀ t : Fin cfg0.N, t.val % 4 = 3 → ∀ (b : Fin 512) (y : Fin 640),
      (dat.after 5 t : Vec Ideal S1x512x640 .f32) (ix3 0 b y) = G (th t) b y)
    (t : Fin cfg0.N) (ht : t.val % 4 = 3) (y : S1x512x640.Idx) :
    (dat.after 5 t : Vec Ideal S1x512x640 .f32) y = G (th t) (y 1) (y 2) := by
  have hy : y = ix3 (0 : Fin 1) (y 1 : Fin 512) (y 2 : Fin 640) := by
    funext a
    match a with
    | ⟨0, _⟩ =>
      apply Fin.ext
      have hy0 : (y 0).val < 1 := (y 0).isLt
      show (y 0).val = (0 : Fin 1).val
      rw [Fin.val_zero]; omega
    | ⟨1, _⟩ => rfl
    | ⟨2, _⟩ => rfl
  exact (congrArg (dat.after 5 t : Vec Ideal S1x512x640 .f32) hy).trans (h t ht (y 1) (y 2))

/-- An index of the output array lies in the block of point t iff, on each axis, its coordinate lies in the
    block's range there. -/
theorem mem_blk5 (t : Fin cfg0.N) (i : S2x512x640.Idx) :
    i ∈ ((cfg0.win 5).blk t).view.set ↔ ∀ a : Fin 3, win0_5.index t a * S1x512x640.size a ≤ (i a).val
      ∧ (i a).val < win0_5.index t a * S1x512x640.size a + S1x512x640.size a := by
  show i ∈ ((View.whole main_call0_v8).slice (win0_5.rect t)).set ↔ _
  rw [View.set_slice_whole, Rect.mem_set_unit]
  exact Iff.rfl

/-- Equal arguments, equal values (the three coordinates at once). -/
theorem G_congr (G : Fin 2 → Fin 512 → Fin 640 → EReal) (a a' : Fin 2) (b b' : Fin 512) (z z' : Fin 640)
    (h1 : a = a') (h2 : b = b') (h3 : z = z') : G a' b' z' = G a b z := by
  rw [h1, h2, h3]

/-- The call's output array after the run: half cc holds what the body left in the output block at the last point
    of that half, for any proof data whose output block at the points that write back is G of the point's half. -/
theorem arrAt5_apply {c : Dev nD} (dat : Dat τ (Elt Ideal) Unit ℕ (UR sig nD τ) ℕ cfg0 c)
    (G : Fin 2 → Fin 512 → Fin 640 → EReal)
    (h : ∀ t : Fin cfg0.N, t.val % 4 = 3 → ∀ (b : Fin 512) (y : Fin 640),
      (dat.after 5 t : Vec Ideal S1x512x640 .f32) (ix3 0 b y) = G (th t) b y)
    (cc : Fin 2) (b : Fin 512) (y : Fin 640) :
    (dat.arrAt 5 cfg0.N : Vec Ideal S2x512x640 .f32) (ix3 cc b y) = G cc b y := by
  -- the whole output array: entry (cc, b, y) holds G cc b y
  have hG : ∀ t, (cfg0.win 5).flush t = true →
      dat.flushed 5 t = ((cfg0.win 5).blk t).view.read (Elt Ideal)
        ((fun i => G (i 0) (i 1) (i 2) : Vec Ideal S2x512x640 .f32)) := by
    intro t hf
    have ht : t.val % 4 = 3 := (flush0_5 t).mp hf
    obtain ⟨-, -, -, -, -, -, -, -, -, -, e0, e1, e2⟩ := idx_facts t
    show (cfg0.win 5).cut (grid0.coords t) (dat.after 5 t) = _
    funext y
    rw [View.read_apply]
    show (dat.after 5 t : Vec Ideal S1x512x640 .f32) y
      = G ((((cfg0.win 5).blk t).view.emb y) 0) ((((cfg0.win 5).blk t).view.emb y) 1) ((((cfg0.win 5).blk t).view.emb y) 2)
    rw [after5_at dat G h t ht y]
    have c0 : (((((cfg0.win 5).blk t).view.emb y) 0 : Fin 2)) = th t := Fin.ext (by
      show win0_5.index t (0 : Fin 3) * 1 + 1 * (y 0).val = t.val / 4
      have hy : (y 0).val < 1 := (y 0).isLt
      rw [e0]; omega)
    have c1 : (((((cfg0.win 5).blk t).view.emb y) 1 : Fin 512)) = y 1 := Fin.ext (by
      show win0_5.index t (1 : Fin 3) * 512 + 1 * (y 1).val = (y 1).val
      rw [e1]; omega)
    have c2 : (((((cfg0.win 5).blk t).view.emb y) 2 : Fin 640)) = y 2 := Fin.ext (by
      show win0_5.index t (2 : Fin 3) * 640 + 1 * (y 2).val = (y 2).val
      rw [e2]; omega)
    exact G_congr G _ _ _ _ _ _ c0 c1 c2
  -- half cc is the block of the last point of that half
  have hlt : 4 * cc.val + 3 < cfg0.N := by
    have := cc.isLt
    show 4 * cc.val + 3 < grid0.N
    rw [N_0]; omega
  have hf : (cfg0.win 5).flush ⟨4 * cc.val + 3, hlt⟩ = true :=
    (flush0_5 ⟨4 * cc.val + 3, hlt⟩).mpr (by show (4 * cc.val + 3) % 4 = 3; omega)
  have hmem : (ix3 cc b y : S2x512x640.Idx) ∈ ((cfg0.win 5).blk ⟨4 * cc.val + 3, hlt⟩).view.set := by
    obtain ⟨-, -, -, -, -, -, -, -, -, -, e0, e1, e2⟩ := idx_facts ⟨4 * cc.val + 3, hlt⟩
    have e0' : win0_5.index ⟨4 * cc.val + 3, hlt⟩ (0 : Fin 3) = cc.val := by
      rw [e0]; show (4 * cc.val + 3) / 4 = cc.val; omega
    rw [mem_blk5]
    intro a
    match a with
    | ⟨0, _⟩ =>
      show win0_5.index ⟨4 * cc.val + 3, hlt⟩ (0 : Fin 3) * 1 ≤ cc.val
        ∧ cc.val < win0_5.index ⟨4 * cc.val + 3, hlt⟩ (0 : Fin 3) * 1 + 1
      rw [e0']; omega
    | ⟨1, _⟩ =>
      show win0_5.index ⟨4 * cc.val + 3, hlt⟩ (1 : Fin 3) * 512 ≤ b.val
        ∧ b.val < win0_5.index ⟨4 * cc.val + 3, hlt⟩ (1 : Fin 3) * 512 + 512
      have := b.isLt
      rw [e1]; omega
    | ⟨2, _⟩ =>
      show win0_5.index ⟨4 * cc.val + 3, hlt⟩ (2 : Fin 3) * 640 ≤ y.val
        ∧ y.val < win0_5.index ⟨4 * cc.val + 3, hlt⟩ (2 : Fin 3) * 640 + 640
      have := y.isLt
      rw [e2]; omega
  exact dat.arrAt_apply_of_mem 5 _ hG cfg0.N ⟨4 * cc.val + 3, hlt⟩ (ix3 cc b y) hlt hf hmem

end Cert.Proof.KerBlocks

end
-- ==== Proof.KerHost.lean ====
/-
  The host operations around the kernel call, read at an entry on the extended reals: before the call the node inputs
  lose their unit axis, the adjacency is transposed, and the first weight and bias are tiled over the nodes; after the
  call the two halves of the result are added and the second bias is added to every row.
-/
import proofs.«175894_g2000004315035959_pallasbulk_646_4_alg».proof.Proof.Gen.KernelIdeal.Frame
import proofs.«175894_g2000004315035959_pallasbulk_646_4_alg».proof.Proof.Spec
import Idealize.ShloMosaic.Lib.Pipeline.Value
import Idealize.ShloMosaic.Lib.ValueLayout
import Idealize.ShloMosaic.Lib.StableHlo.Run

noncomputable section

namespace Cert.Proof.KerHost

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A [512,128,1] array read as [512,128]: entry (b, j) is entry (b, j, 0). -/
theorem dropLastUnit_apply (x : FVec Ideal ⟨3, ![512, 128, 1]⟩ .f32) (b : Fin 512) (j : Fin 128) :
    shapeCast S512x128 x shapeCasts_S512x128x1_S512x128 (ix2 b j) = x (ix3 b j 0) := by
  refine shapeCast_apply x _ _ _ ?_
  rw [Shape.rowMajor_val_three, Shape.rowMajor_val_two]
  show (b.val * 128 + j.val) * 1 + 0 = b.val * 128 + j.val
  omega

/-- A row of 64 features tiled over the 128 nodes and laid out node-major: position g holds feature g % 64. -/
theorem tile_apply (x : FVec Ideal ⟨2, ![1, 64]⟩ .f32) (g : Fin 8192) :
    shapeCast S1x8192
      (broadcastInDim S1x1x128x64 ![0, 1, 2, 3] bcast_S1x1x1x64_S1x1x128x64_0_1_2_3
        (shapeCast S1x1x1x64 x shapeCasts_S1x64_S1x1x1x64)) shapeCasts_S1x1x128x64_S1x8192 (ix2 0 g)
      = x (ix2 0 (Cert.Spec.featOf g)) := by
  have hg := g.isLt
  -- position g of the flat row is node g / 64, feature g % 64 of the tiled array
  refine (shapeCast_apply _ shapeCasts_S1x1x128x64_S1x8192 (ix2 0 g)
    (ix4 (0 : Fin 1) (0 : Fin 1) (Cert.Spec.nodeOf g) (Cert.Spec.featOf g)) ?_).trans ?_
  · rw [Shape.rowMajor_val_four, Shape.rowMajor_val_two]
    show ((0 * 1 + 0) * 128 + g.val / 64) * 64 + g.val % 64 = 0 * 8192 + g.val
    omega
  -- the tiled array does not depend on the node
  refine (broadcastInDim_apply _ bcast_S1x1x1x64_S1x1x128x64_0_1_2_3 _ _
    (ix4 (0 : Fin 1) (0 : Fin 1) (0 : Fin 1) (Cert.Spec.featOf g)) ?_).trans ?_
  · intro a
    match a with
    | ⟨0, _⟩ => rfl
    | ⟨1, _⟩ => rfl
    | ⟨2, _⟩ => rfl
    | ⟨3, _⟩ => rfl
  refine shapeCast_apply x shapeCasts_S1x64_S1x1x1x64 _ (ix2 (0 : Fin 1) (Cert.Spec.featOf g)) ?_
  rw [Shape.rowMajor_val_four, Shape.rowMajor_val_two]
  show 0 * 64 + g.val % 64 = ((0 * 1 + 0) * 1 + 0) * 64 + g.val % 64
  omega

theorem V_v7_eq (c : Dev nD) :
    (V m c main_call0_v7 : Vec Ideal S512x128 .f32)
      = shapeCast S512x128 (m ((c : Thread nD τ).loc main_arg1) : Vec Ideal S512x128x1 .f32) shapeCasts_S512x128x1_S512x128 := by
  show StableHlo.after hostOps0 (fun b => m (c, b)) (Proc.devRef .tc main_call0_v7) = _
  after_results
  rfl

theorem V_v0_eq (c : Dev nD) :
    (V m c main_call0_v0 : Vec Ideal S128x128 .f32)
      = transpose S128x128 [1, 0] (m ((c : Thread nD τ).loc main_arg0) : Vec Ideal S128x128 .f32) transposes_S128x128_S128x128_1_0 := by
  show StableHlo.after hostOps0 (fun b => m (c, b)) (Proc.devRef .tc main_call0_v0) = _
  after_results
  rfl

theorem V_v3_eq (c : Dev nD) :
    (V m c main_call0_v3 : Vec Ideal S1x8192 .f32)
      = shapeCast S1x8192
          (broadcastInDim S1x1x128x64 ![0, 1, 2, 3] bcast_S1x1x1x64_S1x1x128x64_0_1_2_3
            (shapeCast S1x1x1x64 (m ((c : Thread nD τ).loc main_arg2) : Vec Ideal S1x64 .f32) shapeCasts_S1x64_S1x1x1x64))
          shapeCasts_S1x1x128x64_S1x8192 := by
  show StableHlo.after hostOps0 (fun b => m (c, b)) (Proc.devRef .tc main_call0_v3) = _
  after_results
  rfl

theorem V_v6_eq (c : Dev nD) :
    (V m c main_call0_v6 : Vec Ideal S1x8192 .f32)
      = shapeCast S1x8192
          (broadcastInDim S1x1x128x64 ![0, 1, 2, 3] bcast_S1x1x1x64_S1x1x128x64_0_1_2_3
            (shapeCast S1x1x1x64 (m ((c : Thread nD τ).loc main_arg3) : Vec Ideal S1x64 .f32) shapeCasts_S1x64_S1x1x1x64))
          shapeCasts_S1x1x128x64_S1x8192 := by
  show StableHlo.after hostOps0 (fun b => m (c, b)) (Proc.devRef .tc main_call0_v6) = _
  after_results
  rfl

/-- The node inputs without their unit axis. -/
theorem V_v7_apply (c : Dev nD) (b : Fin 512) (j : Fin 128) :
    (V m c main_call0_v7 : Vec Ideal S512x128 .f32) (ix2 b j) = m ((c : Thread nD τ).loc main_arg1) (ix3 b j 0) := by
  rw [V_v7_eq]
  exact dropLastUnit_apply _ b j

/-- The adjacency transposed. -/
theorem V_v0_apply (c : Dev nD) (j n : Fin 128) :
    (V m c main_call0_v0 : Vec Ideal S128x128 .f32) (ix2 j n) = m ((c : Thread nD τ).loc main_arg0) (ix2 n j) := by
  rw [V_v0_eq]
  exact transpose_ix2_apply _ _ j n

/-- The first weight tiled over the nodes: hidden unit g holds the weight of its feature. -/
theorem V_v3_apply (c : Dev nD) (g : Fin 8192) :
    (V m c main_call0_v3 : Vec Ideal S1x8192 .f32) (ix2 0 g) = m ((c : Thread nD τ).loc main_arg2) (ix2 0 (Cert.Spec.featOf g)) := by
  rw [V_v3_eq]
  exact tile_apply _ g

/-- The first bias tiled over the nodes. -/
theorem V_v6_apply (c : Dev nD) (g : Fin 8192) :
    (V m c main_call0_v6 : Vec Ideal S1x8192 .f32) (ix2 0 g) = m ((c : Thread nD τ).loc main_arg3) (ix2 0 (Cert.Spec.featOf g)) := by
  rw [V_v6_eq]
  exact tile_apply _ g

/-- The two halves of a [2,512,640] array added entry by entry, then a row of 640 added to every one of the 512 rows. -/
theorem tailVal_apply (arr : FVec Ideal ⟨3, ![2, 512, 640]⟩ .f32) (B2 : FVec Ideal ⟨2, ![1, 640]⟩ .f32)
    (b : Fin 512) (y : Fin 640) :
    addf (addf
        (shapeCast S512x640 (extractStridedSlice S1x512x640 ![0, 0, 0] arr slices_S2x512x640_S1x512x640_0_0_0)
          shapeCasts_S1x512x640_S512x640)
        (shapeCast S512x640 (extractStridedSlice S1x512x640 ![1, 0, 0] arr slices_S2x512x640_S1x512x640_1_0_0)
          shapeCasts_S1x512x640_S512x640))
      (broadcastInDim S512x640 ![0, 1] bcast_S1x640_S512x640_0_1 B2) (ix2 b y)
      = (arr (ix3 0 b y) + arr (ix3 1 b y)) + B2 (ix2 0 y) := by
  -- half 0 at (b, y)
  have e0 : shapeCast S512x640 (extractStridedSlice S1x512x640 ![0, 0, 0] arr slices_S2x512x640_S1x512x640_0_0_0)
      shapeCasts_S1x512x640_S512x640 (ix2 b y) = arr (ix3 0 b y) := by
    refine (shapeCast_1ab_ab_apply _ shapeCasts_S1x512x640_S512x640 b y).trans ?_
    refine extractStridedSlice_apply _ arr _ _ (ix3 (0 : Fin 2) b y) ?_
    intro a
    match a with
    | ⟨0, _⟩ => rfl
    | ⟨1, _⟩ => show b.val = 0 + b.val; omega
    | ⟨2, _⟩ => show y.val = 0 + y.val; omega
  -- half 1 at (b, y)
  have e1 : shapeCast S512x640 (extractStridedSlice S1x512x640 ![1, 0, 0] arr slices_S2x512x640_S1x512x640_1_0_0)
      shapeCasts_S1x512x640_S512x640 (ix2 b y) = arr (ix3 1 b y) := by
    refine (shapeCast_1ab_ab_apply _ shapeCasts_S1x512x640_S512x640 b y).trans ?_
    refine extractStridedSlice_apply _ arr _ _ (ix3 (1 : Fin 2) b y) ?_
    intro a
    match a with
    | ⟨0, _⟩ => rfl
    | ⟨1, _⟩ => show b.val = 0 + b.val; omega
    | ⟨2, _⟩ => show y.val = 0 + y.val; omega
  -- the row read at any of the 512 rows
  have e2 : broadcastInDim S512x640 ![0, 1] bcast_S1x640_S512x640_0_1 B2 (ix2 b y) = B2 (ix2 0 y) := by
    refine broadcastInDim_apply _ _ B2 _ (ix2 (0 : Fin 1) y) ?_
    intro a
    match a with
    | ⟨0, _⟩ => rfl
    | ⟨1, _⟩ => rfl
  rw [addf_apply, addf_apply, e0, e1, e2]

/-- After the call: the result is the sum of the two halves of the call's output array plus the second bias (the
    output array and the bias named, so that the sum is a sum of extended reals). -/
theorem tail_apply (dats : (p : Fin 1) → (c : Dev nD) → Dat τ (Elt Ideal) Unit ℕ (UR sig nD τ) ℕ (cfgs p) c)
    (c : Dev nD) (arr : FVec Ideal ⟨3, ![2, 512, 640]⟩ .f32) (harr : (dats 0 c).arrAt 5 cfg0.N = arr)
    (B2 : FVec Ideal ⟨2, ![1, 640]⟩ .f32) (hB2 : m ((c : Thread nD τ).loc main_arg5) = B2)
    (b : Fin 512) (y : Fin 640) :
    (Pipeline.afterTail₀ cfgs dats 0 (V0 m) [hostOps1] c main_v0 : Vec Ideal S512x640 .f32) (ix2 b y)
      = (arr (ix3 0 b y) + arr (ix3 1 b y)) + B2 (ix2 0 y) := by
  -- the buffers as the call leaves them: its arrays at their final contents, every other buffer as the call found it
  let W : Valuation τ sig (Elt Ideal) :=
    Pipeline.withArrays (cfgs 0).spec c (V0 m c) fun w => (dats 0 c).arrAt w (cfgs 0).N
  -- the call's output array is the last of its arrays
  have h8 : (W (Proc.devRef .tc main_call0_v8) : Vec Ideal S2x512x640 .f32) = arr :=
    (Pipeline.withArrays_arr spec0 launch0.win.arr_inj c (V0 m c) (fun w => (dats 0 c).arrAt w cfg0.N) 5).trans harr
  -- the second bias is none of the call's arrays, and nothing before the call wrote it
  have h5 : (W (Proc.devRef .tc main_arg5) : Vec Ideal S1x640 .f32) = B2 :=
    ((Pipeline.withArrays_of_ne spec0 c (V0 m c) (fun w => (dats 0 c).arrAt w cfg0.N) main_arg5
        (by exact (by decide : ∀ w, Pipeline.arrRef spec0 w ≠ main_arg5))).trans (V_main_arg5 m c)).trans hB2
  -- the seven operations after the call, as one expression over those two buffers
  have e : @Eq (Vec Ideal S512x640 .f32) (Pipeline.afterTail₀ cfgs dats 0 (V0 m) [hostOps1] c main_v0)
      (addf (F := Ideal) (φ := .f32) (addf (F := Ideal) (φ := .f32)
          (shapeCast S512x640
            (extractStridedSlice S1x512x640 ![0, 0, 0] (W (Proc.devRef .tc main_call0_v8) : Vec Ideal S2x512x640 .f32)
              slices_S2x512x640_S1x512x640_0_0_0) shapeCasts_S1x512x640_S512x640)
          (shapeCast S512x640
            (extractStridedSlice S1x512x640 ![1, 0, 0] (W (Proc.devRef .tc main_call0_v8) : Vec Ideal S2x512x640 .f32)
              slices_S2x512x640_S1x512x640_1_0_0) shapeCasts_S1x512x640_S512x640))
        (broadcastInDim S512x640 ![0, 1] bcast_S1x640_S512x640_0_1 (W (Proc.devRef .tc main_arg5) : Vec Ideal S1x640 .f32))) := by
    unfold Pipeline.afterTail₀
    show StableHlo.after hostOps1 W (Proc.devRef .tc main_v0) = _
    after_results
    rfl
  rw [e, h8, h5]
  exact tailVal_apply arr B2 b y

end Cert.Proof.KerHost

end
-- ==== Proof.KerValue.lean ====
/-
  The idealized kernel program's result as a function of the argument arrays.

  At every point the scratch holds the aggregate agg b n (the sum over j of X b j * A n j); the output block after point t
  holds the chunks of t's half up to t, added from left to right; the block is written back after the last chunk of each
  half, so the call's output array holds the two halves' sums, and the host adds them and the second bias.
-/
import proofs.«175894_g2000004315035959_pallasbulk_646_4_alg».proof.Proof.Run
import proofs.«175894_g2000004315035959_pallasbulk_646_4_alg».proof.Proof.KerPay
import proofs.«175894_g2000004315035959_pallasbulk_646_4_alg».proof.Proof.KerBlocks
import proofs.«175894_g2000004315035959_pallasbulk_646_4_alg».proof.Proof.KerHost
import proofs.«175894_g2000004315035959_pallasbulk_646_4_alg».proof.Proof.Spec

set_option maxRecDepth 16384

noncomputable section

open scoped BigOperators

namespace Cert.Proof.KerValue

open Cert.KernelIdeal Cert.KernelIdeal.Gen
open Cert.Proof.KI Cert.Proof.KerPay Cert.Proof.KerBlocks Cert.Proof.KerHost
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays on core c, by name -/

abbrev aA (c : Dev nD) : FVec Ideal Cert.Spec.SA .f32 := m ((c : Thread nD τ).loc main_arg0)
abbrev aX (c : Dev nD) : FVec Ideal Cert.Spec.SX .f32 := m ((c : Thread nD τ).loc main_arg1)
abbrev aW1 (c : Dev nD) : FVec Ideal Cert.Spec.SW1 .f32 := m ((c : Thread nD τ).loc main_arg2)
abbrev aB1 (c : Dev nD) : FVec Ideal Cert.Spec.SW1 .f32 := m ((c : Thread nD τ).loc main_arg3)
abbrev aW2 (c : Dev nD) : FVec Ideal Cert.Spec.SW2 .f32 := m ((c : Thread nD τ).loc main_arg4)
abbrev aB2 (c : Dev nD) : FVec Ideal Cert.Spec.SB2 .f32 := m ((c : Thread nD τ).loc main_arg5)

/-- The chunk a point's coordinates name is the point's number. -/
theorem kgOf_coords : ∀ t : Fin cfg0.N, kgOf (grid0.coords t) = tk t :=
  (by decide +kernel : ∀ t : Fin grid0.N, kgOf (grid0.coords t) = tk t)

/-! ## One point's values -/

/-- The aggregate the body computes from the first two blocks is the specification's. -/
theorem agg_apply (c : Dev nD) (t : Fin cfg0.N) (b : Fin 512) (n : Fin 128) :
    k0_pay4 (F := Ideal) (iblk m c 0 t) (iblk m c 1 t) (ix2 b n) = Cert.Spec.agg (aA m c) (aX m c) b n := by
  refine (pay4_apply (iblk m c 0 t) (iblk m c 1 t) b n).trans ?_
  unfold Cert.Spec.agg
  refine Finset.sum_congr rfl fun j _ => ?_
  rw [iblk0_apply, iblk1_apply, V_v7_apply, V_v0_apply]

/-- A point's contribution, from a scratch that holds the aggregate, is its chunk's. -/
theorem chunk_apply (c : Dev nD) (t : Fin cfg0.N) (S : Vec Ideal S512x128 .f32)
    (hS : ∀ (b : Fin 512) (n : Fin 128), S (ix2 b n) = Cert.Spec.agg (aA m c) (aX m c) b n) (b : Fin 512) (y : Fin 640) :
    k0_pay1 (F := Ideal) (k0_pay5 (grid0.coords t) S) (k0_pay6 (iblk m c 2 t)) (iblk m c 3 t) (iblk m c 4 t) (ix2 b y)
      = Cert.Spec.chunk (aA m c) (aX m c) (aW1 m c) (aB1 m c) (aW2 m c) (tk t) b y := by
  refine (contrib_apply (grid0.coords t) S (iblk m c 2 t) (iblk m c 3 t) (iblk m c 4 t) b y).trans ?_
  unfold Cert.Spec.chunk Cert.Spec.hidK
  refine Finset.sum_congr rfl fun j _ => ?_
  rw [kgOf_coords, hS, iblk2_apply, iblk3_apply, iblk4_apply, V_v3_apply, V_v6_apply, V_main_arg4]

/-- A [512, 640] array seen as [1, 512, 640]. -/
theorem cast3_apply {α : Type} (v : (⟨2, ![512, 640]⟩ : Shape).Idx → α)
    (h : (⟨2, ![512, 640]⟩ : Shape).ShapeCasts ⟨3, ![1, 512, 640]⟩) (b : Fin 512) (y : Fin 640) :
    shapeCast ⟨3, ![1, 512, 640]⟩ v h (ix3 0 b y) = v (ix2 b y) :=
  shapeCast_apply v h _ _ (by
    rw [Shape.rowMajor_val_two, Shape.rowMajor_val_three]
    show b.val * 640 + y.val = (0 * 512 + b.val) * 640 + y.val
    omega)

/-! ## The output block and the scratch after each point -/

/-- The chunks of the half of position n up to n, added from left to right. -/
def accS (c : Dev nD) : (n : ℕ) → n < cfg0.N → Fin 512 → Fin 640 → EReal
  | 0, hn => Cert.Spec.chunk (aA m c) (aX m c) (aW1 m c) (aB1 m c) (aW2 m c) (tk ⟨0, hn⟩)
  | n + 1, hn =>
    if (n + 1) % 4 = 0 then Cert.Spec.chunk (aA m c) (aX m c) (aW1 m c) (aB1 m c) (aW2 m c) (tk ⟨n + 1, hn⟩)
    else fun b y => accS c n (Nat.lt_of_succ_lt hn) b y
      + Cert.Spec.chunk (aA m c) (aX m c) (aW1 m c) (aB1 m c) (aW2 m c) (tk ⟨n + 1, hn⟩) b y

/-- After every point the scratch holds the aggregate and the output block the accumulated chunks. -/
theorem outsAt_apply (c : Dev nD) : ∀ (n : ℕ) (hn : n < cfg0.N),
    (∀ (b : Fin 512) (k : Fin 128), (outsAt m c n hn).2 (ix2 b k) = Cert.Spec.agg (aA m c) (aX m c) b k)
    ∧ (∀ (b : Fin 512) (y : Fin 640), (outsAt m c n hn).1 (ix3 0 b y) = accS m c n hn b y)
  | 0, hn => by
    refine ⟨fun b k => agg_apply m c ⟨0, hn⟩ b k, fun b y => ?_⟩
    show k0_pay2 (F := Ideal) _ _ _ _ (ix3 0 b y) = _
    unfold k0_pay2
    rw [cast3_apply]
    exact chunk_apply m c ⟨0, hn⟩ _ (fun b k => agg_apply m c ⟨0, hn⟩ b k) b y
  | n + 1, hn => by
    obtain ⟨ihS, ihO⟩ := outsAt_apply c n (Nat.lt_of_succ_lt hn)
    by_cases h0 : (n + 1) % 4 = 0
    · have e : outsAt m c (n + 1) hn = stepA m c ⟨n + 1, hn⟩ := if_pos h0
      have ea : accS m c (n + 1) hn = Cert.Spec.chunk (aA m c) (aX m c) (aW1 m c) (aB1 m c) (aW2 m c) (tk ⟨n + 1, hn⟩) := if_pos h0
      rw [e, ea]
      refine ⟨fun b k => agg_apply m c ⟨n + 1, hn⟩ b k, fun b y => ?_⟩
      show k0_pay2 (F := Ideal) _ _ _ _ (ix3 0 b y) = _
      unfold k0_pay2
      rw [cast3_apply]
      exact chunk_apply m c ⟨n + 1, hn⟩ _ (fun b k => agg_apply m c ⟨n + 1, hn⟩ b k) b y
    · have e : outsAt m c (n + 1) hn = stepB m c ⟨n + 1, hn⟩ (outsAt m c n (Nat.lt_of_succ_lt hn)) := if_neg h0
      have ea : accS m c (n + 1) hn = fun b y => accS m c n (Nat.lt_of_succ_lt hn) b y
          + Cert.Spec.chunk (aA m c) (aX m c) (aW1 m c) (aB1 m c) (aW2 m c) (tk ⟨n + 1, hn⟩) b y := if_neg h0
      rw [e, ea]
      refine ⟨fun b k => ihS b k, fun b y => ?_⟩
      show k0_pay3 (F := Ideal) _ _ _ _ _ (ix3 0 b y) = _
      unfold k0_pay3
      rw [addf_apply, shapeCast_self, cast3_apply, ihO b y]
      exact congrArg (_ + ·) (chunk_apply m c ⟨n + 1, hn⟩ _ ihS b y)

/-- At the last point of a half the accumulated chunks are the half. -/
theorem accS_last (c : Dev nD) (t : Fin cfg0.N) (ht : t.val % 4 = 3) (b : Fin 512) (y : Fin 640) :
    accS m c t.val t.isLt b y = Cert.Spec.part (aA m c) (aX m c) (aW1 m c) (aB1 m c) (aW2 m c) (th t) b y := by
  rcases fin_N0 t with rfl | rfl | rfl | rfl | rfl | rfl | rfl | rfl
  all_goals first | (exfalso; revert ht; decide) | rfl

/-! ## The call's output array, and the result -/

/-- The call's output array after the run: half cc holds the specification's half. -/
theorem arr_apply (c : Dev nD) (cc : Fin 2) (b : Fin 512) (y : Fin 640) :
    ((dats m 0 c).arrAt 5 cfg0.N : Vec Ideal S2x512x640 .f32) (ix3 cc b y)
      = Cert.Spec.part (aA m c) (aX m c) (aW1 m c) (aB1 m c) (aW2 m c) cc b y :=
  arrAt5_apply (dats m 0 c) (Cert.Spec.part (aA m c) (aX m c) (aW1 m c) (aB1 m c) (aW2 m c))
    (fun t ht b y => by
      rw [after0_5]
      exact ((outsAt_apply m c t.val t.isLt).2 b y).trans (accS_last m c t ht b y)) cc b y

/-- What the lines after the call leave in the result: the chunk-by-chunk arrangement of the argument arrays. -/
theorem tail_eq (c : Dev nD) :
    (Pipeline.afterTail₀ cfgs (dats m) 0 (V0 m) [hostOps1] c main_v0 : Vec Ideal S512x640 .f32)
      = Cert.Spec.Gker (aA m c) (aX m c) (aW1 m c) (aB1 m c) (aW2 m c) (aB2 m c) := by
  funext i
  obtain ⟨b, y, rfl⟩ : ∃ (b : Fin 512) (y : Fin 640), i = ix2 b y := ⟨i 0, i 1, eq_ix2 i⟩
  rw [tail_apply m (dats m) c _ rfl (aB2 m c) rfl b y]
  show _ = Cert.Spec.gker _ _ _ _ _ _ b y
  unfold Cert.Spec.gker
  rw [arr_apply, arr_apply]

/-- Every weakly fair execution of the idealized kernel program ends with the result at the chunk-by-chunk arrangement of
    the argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v0)
        = Cert.Spec.Gker (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      (((h c).2 main_arg5 (Pipeline.mem_restRefs_of main_arg5 (by decide) (by decide))).trans (W_main_arg5 m (dats m) c))⟩)
    (run_main (F := Ideal) m ρ)

end Cert.Proof.KerValue

end
-- ==== Proof.RefValue.lean ====
/-
  The reference program's result: its one kernel call computes, for every graph and output, the sum over all hidden units at
  once, from operands the host lays out first (the adjacency transposed and multiplied by the first weight, the bias
  tiled over the nodes).

  The plan. The call's grid has a single point and every window's block is its whole array, so the result array
  is what the body leaves of the five operand arrays as the call finds them. The body is read at one entry (b, y):
  two matrix products into zero, a row broadcast, a sum, a cut-off at zero, a row broadcast, a sum. Each operand
  array is read at one entry through the host's layout operations: a reshape moves an entry along the row-major
  order, a broadcast repeats it, a padding of width zero changes nothing. Put together, entry (b, y) is the
  specification's sum over all 8192 hidden units.
-/
import proofs.«175894_g2000004315035959_pallasbulk_646_4_alg».proof.Defs
import proofs.«175894_g2000004315035959_pallasbulk_646_4_alg».proof.Proof.Gen.ReferenceIdeal.Frame
import proofs.«175894_g2000004315035959_pallasbulk_646_4_alg».proof.Proof.Spec
import proofs.«175894_g2000004315035959_pallasbulk_646_4_alg».proof.Proof.LibDot
import Idealize.ShloMosaic.Lib.KernelVsHost
import Idealize.ShloMosaic.Lib.Pipeline.Value
import Idealize.ShloMosaic.Lib.ValueLayout

noncomputable section

namespace Cert.Proof.RefValue

open Cert.ReferenceIdeal Cert.ReferenceIdeal.Gen
open Idealize.ShloMosaic Idealize.ShloMosaic.TcCoe Idealize.SL.Sem
open Idealize.ShloMosaic.ValueIdx
open scoped BigOperators

/-! ## The body at one entry -/

/-- One hidden unit as the body computes it: the entry of the first product, plus the tiled bias, cut off below at zero. -/
theorem hidden_apply (x0 : FVec Ideal S512x128 .f32) (x1 : FVec Ideal S128x8192 .f32) (x2 : FVec Ideal S1x8192 .f32)
    (b : Fin 512) (g : Fin 8192) :
    maximumf (addf (matmul dot_S512x128_S128x8192_S512x8192_1_0_0_1_n_n none
          x0 x1 (constant (F := Ideal) S512x8192 .f32 0x00000000#32))
        (broadcastTo S512x8192 x2 broadcasts_S1x8192_S512x8192))
      (broadcast S512x8192 (Scalar.ofBits (F := Ideal) .f32 0x00000000#32)) (ix2 b g)
    = max ((∑ j : Fin 128, x0 (ix2 b j) * x1 (ix2 j g)) + x2 (ix2 0 g)) 0 := by
  rw [maximumf_apply, addf_apply, broadcast_apply,
    Cert.LibDot.matmul_zero_apply _ rfl rfl rfl rfl rfl rfl, broadcastTo_1b_ab_apply]
  exact congrArg (max _) Ideal.ofBits_zero_f32

/-- The body's stored value at entry (b, y): the second product over all hidden units, plus the output bias. -/
theorem pay_apply (x0 : FVec Ideal S512x128 .f32) (x1 : FVec Ideal S128x8192 .f32) (x2 : FVec Ideal S1x8192 .f32)
    (x3 : FVec Ideal S8192x640 .f32) (x4 : FVec Ideal S1x640 .f32) (b : Fin 512) (y : Fin 640) :
    k0_pay1 x0 x1 x2 x3 x4 (ix2 b y)
      = (∑ g : Fin 8192, max ((∑ j : Fin 128, x0 (ix2 b j) * x1 (ix2 j g)) + x2 (ix2 0 g)) 0 * x3 (ix2 g y))
        + x4 (ix2 0 y) := by
  unfold k0_pay1
  rw [addf_apply, Cert.LibDot.matmul_zero_apply _ rfl rfl rfl rfl rfl rfl, broadcastTo_1b_ab_apply, shapeCast_self,
    shapeCast_self, shapeCast_self, shapeCast_self]
  refine congrArg (· + x4 (ix2 0 y)) (Finset.sum_congr rfl fun g _ => ?_)
  rw [hidden_apply]

/-- The offset (0, 0) is the zero offset. -/
theorem zero2 : (![0, 0] : Fin 2 → Nat) = fun _ => 0 := funext fun a => by fin_cases a <;> rfl

/-- What the body leaves in the result's buffer, at entry (b, y): its one store covers the buffer and every load reads
    a whole buffer. -/
theorem out_apply (x0 : Vec Ideal S512x128 .f32) (x1 : Vec Ideal S128x8192 .f32) (x2 : Vec Ideal S1x8192 .f32)
    (x3 : Vec Ideal S8192x640 .f32) (x4 : Vec Ideal S1x640 .f32) (b : Fin 512) (y : Fin 640) :
    out0_5 x0 x1 x2 x3 x4 (ix2 b y)
      = (∑ g : Fin 8192, max ((∑ j : Fin 128, x0 (ix2 b j) * x1 (ix2 j g)) + x2 (ix2 0 g)) 0 * x3 (ix2 g y))
        + x4 (ix2 0 y) := by
  unfold out0_5
  rw [View.canon_unit_zero zero2]
  simp only [View.ld_unit_zero (S := S512x128) zero2, View.ld_unit_zero (S := S128x8192) zero2,
    View.ld_unit_zero (S := S1x8192) zero2, View.ld_unit_zero (S := S8192x640) zero2,
    View.ld_unit_zero (S := S1x640) zero2]
  exact pay_apply x0 x1 x2 x3 x4 b y

/-! ## The operand arrays as the call finds them -/

variable (m : (ℓ : Loc nD τ sig) → Buf (Elt Ideal) ℓ) (c : Dev nD)

/-- The six argument arrays on core `c`, at their literal shapes. -/
abbrev argA : FVec Ideal Cert.Spec.SA .f32 := m ((c.tc : Thread nD τ).loc main_arg0)
abbrev argX : FVec Ideal Cert.Spec.SX .f32 := m ((c.tc : Thread nD τ).loc main_arg1)
abbrev argW1 : FVec Ideal Cert.Spec.SW1 .f32 := m ((c.tc : Thread nD τ).loc main_arg2)
abbrev argB1 : FVec Ideal Cert.Spec.SW1 .f32 := m ((c.tc : Thread nD τ).loc main_arg3)
abbrev argW2 : FVec Ideal Cert.Spec.SW2 .f32 := m ((c.tc : Thread nD τ).loc main_arg4)
abbrev argB2 : FVec Ideal Cert.Spec.SB2 .f32 := m ((c.tc : Thread nD τ).loc main_arg5)

/-- A padding of width zero on both sides of both axes, with no interior padding, leaves every entry where it was. -/
theorem pad_none_apply {n0 n1 : Nat} (x : (⟨2, ![n0, n1]⟩ : Shape).Idx → EReal) {u : Shape} (v : u.Idx → EReal)
    (h : (⟨2, ![n0, n1]⟩ : Shape).Pads ![0, 0] ![0, 0] ![0, 0] ⟨2, ![n0, n1]⟩) (hu : 0 < u.numel) (p : Fin n0) (q : Fin n1) :
    pad ⟨2, ![n0, n1]⟩ ![0, 0] ![0, 0] ![0, 0] x v h hu (ix2 p q) = x (ix2 p q) :=
  pad_apply_of_inside _ _ _ x v h hu (ix2 p q) (ix2 p q) fun a => match a with
    | ⟨0, _⟩ => by show p.val = 0 + p.val * (0 + 1); omega
    | ⟨1, _⟩ => by show q.val = 0 + q.val * (0 + 1); omega

/-- The staged node inputs: the argument with its trailing unit axis dropped, then padded by nothing. -/
theorem inputs_apply (b : Fin 512) (j : Fin 128) :
    (V m c main_call0_v14 : S512x128.Idx → EReal) (ix2 b j) = argX m c (ix3 b j 0) := by
  obtain ⟨v, e⟩ : ∃ v : S_.Idx → EReal, (V m c main_call0_v14 : S512x128.Idx → EReal)
      = pad S512x128 ![0, 0] ![0, 0] ![0, 0] (shapeCast S512x128 (argX m c) shapeCasts_S512x128x1_S512x128) v
          pads_S512x128_S512x128_000_000 h_S_ :=
    ⟨_, by dsimp only [Gen.V, Gen.hostOps0]; after_results; rfl⟩
  rw [e]
  refine (pad_none_apply _ v _ _ b j).trans ?_
  exact shapeCast_apply _ _ (ix2 b j) (ix3 b j 0) (by
    rw [Shape.rowMajor_val_three, Shape.rowMajor_val_two]
    show (b.val * 128 + j.val) * 1 + 0 = b.val * 128 + j.val
    omega)

/-- The first product's right operand: row j, column g holds the adjacency's entry (node of g, j) times the first
    weight's entry at the feature of g. The host transposes the adjacency, repeats it along a new last axis of
    length 64, multiplies by the weight repeated over both node axes, and flattens the last two axes: column g
    of the flattened array is (g / 64, g % 64) before the flattening. -/
theorem weights_apply (j : Fin 128) (g : Fin 8192) :
    (V m c main_call0_v7 : S128x8192.Idx → EReal) (ix2 j g)
      = argA m c (ix2 (Cert.Spec.nodeOf g) j) * argW1 m c (ix2 0 (Cert.Spec.featOf g)) := by
  have e : (V m c main_call0_v7 : S128x8192.Idx → EReal)
      = shapeCast S128x8192
          (mulf (F := Ideal)
            (broadcastInDim S128x128x64 ![0, 1, 2] bcast_S128x128x1_S128x128x64_0_1_2
              (broadcastInDim S128x128x1 ![0, 1] bcast_S128x128_S128x128x1_0_1
                (transpose S128x128 [1, 0] (argA m c) transposes_S128x128_S128x128_1_0)))
            (broadcastInDim S128x128x64 ![0, 1, 2] bcast_S1x1x64_S128x128x64_0_1_2
              (broadcastInDim S1x1x64 ![2] bcast_S64_S1x1x64_2
                (shapeCast S64 (argW1 m c) shapeCasts_S1x64_S64))))
          shapeCasts_S128x128x64_S128x8192 := by
    dsimp only [Gen.V, Gen.hostOps0]; after_results; rfl
  rw [e]
  refine (shapeCast_apply _ _ (ix2 j g) (ix3 j (Cert.Spec.nodeOf g) (Cert.Spec.featOf g)) ?_).trans ?_
  · rw [Shape.rowMajor_val_three, Shape.rowMajor_val_two]
    show (j.val * 128 + g.val / 64) * 64 + g.val % 64 = j.val * 8192 + g.val
    omega
  rw [mulf_apply]
  refine congrArg₂ (· * ·) ?_ ?_
  · refine (broadcastInDim_apply _ _ _ (ix3 j (Cert.Spec.nodeOf g) (Cert.Spec.featOf g))
      (ix3 j (Cert.Spec.nodeOf g) (0 : Fin 1)) (fun a => ?_)).trans ?_
    · match a with
      | ⟨0, _⟩ => rfl
      | ⟨1, _⟩ => rfl
      | ⟨2, _⟩ => rfl
    refine (broadcastInDim_apply _ _ _ (ix3 j (Cert.Spec.nodeOf g) (0 : Fin 1)) (ix2 j (Cert.Spec.nodeOf g))
      (fun a => ?_)).trans ?_
    · match a with
      | ⟨0, _⟩ => rfl
      | ⟨1, _⟩ => rfl
    exact transpose_ix2_apply _ _ j (Cert.Spec.nodeOf g)
  · refine (broadcastInDim_apply _ _ _ (ix3 j (Cert.Spec.nodeOf g) (Cert.Spec.featOf g))
      (ix3 (0 : Fin 1) (0 : Fin 1) (Cert.Spec.featOf g)) (fun a => ?_)).trans ?_
    · match a with
      | ⟨0, _⟩ => rfl
      | ⟨1, _⟩ => rfl
      | ⟨2, _⟩ => rfl
    refine (broadcastInDim_apply _ _ _ (ix3 (0 : Fin 1) (0 : Fin 1) (Cert.Spec.featOf g)) (ix1 (Cert.Spec.featOf g))
      (fun a => ?_)).trans ?_
    · match a with
      | ⟨0, _⟩ => rfl
    exact shapeCast_1a_a_apply _ _ (Cert.Spec.featOf g)

/-- The tiled first bias: column g holds the bias at the feature of g. The host repeats the 64 biases over a node
    axis of length 128 and flattens (node, feature) to the column. -/
theorem biasTile_apply (g : Fin 8192) :
    (V m c main_call0_v10 : S1x8192.Idx → EReal) (ix2 0 g) = argB1 m c (ix2 0 (Cert.Spec.featOf g)) := by
  have e : (V m c main_call0_v10 : S1x8192.Idx → EReal)
      = shapeCast S1x8192
          (broadcastInDim S1x1x128x64 ![0, 1, 2, 3] bcast_S1x1x1x64_S1x1x128x64_0_1_2_3
            (shapeCast S1x1x1x64 (argB1 m c) shapeCasts_S1x64_S1x1x1x64))
          shapeCasts_S1x1x128x64_S1x8192 := by
    dsimp only [Gen.V, Gen.hostOps0]; after_results; rfl
  rw [e]
  refine (shapeCast_apply _ _ (ix2 (0 : Fin 1) g)
    (ix4 (0 : Fin 1) (0 : Fin 1) (Cert.Spec.nodeOf g) (Cert.Spec.featOf g)) ?_).trans ?_
  · rw [Shape.rowMajor_val_four, Shape.rowMajor_val_two]
    show ((0 * 1 + 0) * 128 + g.val / 64) * 64 + g.val % 64 = 0 * 8192 + g.val
    omega
  refine (broadcastInDim_apply _ _ _ (ix4 (0 : Fin 1) (0 : Fin 1) (Cert.Spec.nodeOf g) (Cert.Spec.featOf g))
    (ix4 (0 : Fin 1) (0 : Fin 1) (0 : Fin 1) (Cert.Spec.featOf g)) (fun a => ?_)).trans ?_
  · match a with
    | ⟨0, _⟩ => rfl
    | ⟨1, _⟩ => rfl
    | ⟨2, _⟩ => rfl
    | ⟨3, _⟩ => rfl
  exact shapeCast_apply _ _ (ix4 (0 : Fin 1) (0 : Fin 1) (0 : Fin 1) (Cert.Spec.featOf g))
    (ix2 (0 : Fin 1) (Cert.Spec.featOf g)) (by
      rw [Shape.rowMajor_val_two, Shape.rowMajor_val_four]
      show 0 * 64 + g.val % 64 = ((0 * 1 + 0) * 1 + 0) * 64 + g.val % 64
      omega)

/-- The second weight, padded by nothing. -/
theorem w2_apply (g : Fin 8192) (y : Fin 640) :
    (V m c main_call0_v11 : S8192x640.Idx → EReal) (ix2 g y) = argW2 m c (ix2 g y) := by
  obtain ⟨v, e⟩ : ∃ v : S_.Idx → EReal, (V m c main_call0_v11 : S8192x640.Idx → EReal)
      = pad S8192x640 ![0, 0] ![0, 0] ![0, 0] (argW2 m c) v pads_S8192x640_S8192x640_000_000 h_S_ :=
    ⟨_, by dsimp only [Gen.V, Gen.hostOps0]; after_results; rfl⟩
  rw [e]
  exact pad_none_apply _ v _ _ g y

/-- The output bias, padded by nothing. -/
theorem b2_apply (y : Fin 640) :
    (V m c main_call0_v12 : S1x640.Idx → EReal) (ix2 0 y) = argB2 m c (ix2 0 y) := by
  obtain ⟨v, e⟩ : ∃ v : S_.Idx → EReal, (V m c main_call0_v12 : S1x640.Idx → EReal)
      = pad S1x640 ![0, 0] ![0, 0] ![0, 0] (argB2 m c) v pads_S1x640_S1x640_000_000 h_S_ :=
    ⟨_, by dsimp only [Gen.V, Gen.hostOps0]; after_results; rfl⟩
  rw [e]
  exact pad_none_apply _ v _ _ (0 : Fin 1) y

/-! ## The result at one entry, and as an array -/

/-- What the body leaves of the operand arrays, at entry (b, y), is the specification's sum over all hidden units. -/
theorem entry_apply (b : Fin 512) (y : Fin 640) :
    out0_5 (V m c main_call0_v14) (V m c main_call0_v7) (V m c main_call0_v10) (V m c main_call0_v11)
        (V m c main_call0_v12) (ix2 b y)
      = Cert.Spec.gref (argA m c) (argX m c) (argW1 m c) (argB1 m c) (argW2 m c) (argB2 m c) b y := by
  refine (out_apply _ _ _ _ _ b y).trans ?_
  unfold Cert.Spec.gref Cert.Spec.hidR
  refine congrArg₂ (· + ·) (Finset.sum_congr rfl fun g _ => ?_) (b2_apply m c y)
  refine congrArg₂ (· * ·) (congrArg (max · 0) (congrArg₂ (· + ·) (Finset.sum_congr rfl fun j _ => ?_)
    (biasTile_apply m c g))) (w2_apply m c g y)
  exact congrArg₂ (· * ·) (inputs_apply m c b j) (weights_apply m c j g)

/-- The same for the whole array: what the body leaves of the operand arrays is the specification's array. -/
theorem result_eq :
    out0_5 (V m c main_call0_v14) (V m c main_call0_v7) (V m c main_call0_v10) (V m c main_call0_v11)
        (V m c main_call0_v12)
      = Cert.Spec.Gref (argA m c) (argX m c) (argW1 m c) (argB1 m c) (argW2 m c) (argB2 m c) := by
  funext i
  obtain ⟨b, y, rfl⟩ : ∃ (b : Fin 512) (y : Fin 640), i = ix2 b y := ⟨i 0, i 1, eq_ix2 i⟩
  exact entry_apply m c b y

/-! ## One grid point, whole-array blocks -/

/-- Each window's block at the one grid point is its whole array: block index 0, the block the array's size. -/
theorem block0 : iblk m c 0 t0_0 = V m c main_call0_v14 := by
  have hz : (fun a => (win0_0.index t0_0) a * main_call0_v14.ty.shape.size a) = fun _ => 0 :=
    funext fun a => by fin_cases a <;> decide
  exact Memref.read_access_unit_zero (Elt Ideal) main_call0_v14 hz _ _
theorem block1 : iblk m c 1 t0_0 = V m c main_call0_v7 := by
  have hz : (fun a => (win0_1.index t0_0) a * main_call0_v7.ty.shape.size a) = fun _ => 0 :=
    funext fun a => by fin_cases a <;> decide
  exact Memref.read_access_unit_zero (Elt Ideal) main_call0_v7 hz _ _
theorem block2 : iblk m c 2 t0_0 = V m c main_call0_v10 := by
  have hz : (fun a => (win0_2.index t0_0) a * main_call0_v10.ty.shape.size a) = fun _ => 0 :=
    funext fun a => by fin_cases a <;> decide
  exact Memref.read_access_unit_zero (Elt Ideal) main_call0_v10 hz _ _
theorem block3 : iblk m c 3 t0_0 = V m c main_call0_v11 := by
  have hz : (fun a => (win0_3.index t0_0) a * main_call0_v11.ty.shape.size a) = fun _ => 0 :=
    funext fun a => by fin_cases a <;> decide
  exact Memref.read_access_unit_zero (Elt Ideal) main_call0_v11 hz _ _
theorem block4 : iblk m c 4 t0_0 = V m c main_call0_v12 := by
  have hz : (fun a => (win0_4.index t0_0) a * main_call0_v12.ty.shape.size a) = fun _ => 0 :=
    funext fun a => by fin_cases a <;> decide
  exact Memref.read_access_unit_zero (Elt Ideal) main_call0_v12 hz _ _

/-- The result's array after the run: written back once, whole, after the one grid point, it is what the body left. -/
theorem final : (dats m 0 c).arrAt 5 cfg0.N
    = Cert.Spec.Gref (argA m c) (argX m c) (argW1 m c) (argB1 m c) (argW2 m c) (argB2 m c) := by
  rw [show cfg0.N = t0_0.val + 1 from rfl, (dats m 0 c).arrAt_succ 5 t0_0,
    if_pos (show (cfg0.win 5).flush t0_0 = true from rfl)]
  have hz : (fun a => (win0_5.index t0_0) a * main_v0.ty.shape.size a) = fun _ => 0 :=
    funext fun a => by fin_cases a <;> decide
  refine (Memref.write_access_unit_zero_univ (Elt Ideal) main_v0 hz _ _ _).trans ?_
  refine (after0_5 m c t0_0).trans ?_
  rw [block0, block1, block2, block3, block4]
  exact result_eq m c

/-- Every weakly fair execution of the reference ends with the result at the all-at-once sum of the argument arrays, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
        = Cert.Spec.Gref (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Proof.RefValue

end
-- ==== Proof.LibRealLaws.lean ====
/-
  Laws of sums and quotients of extended reals whose operands are real numbers. On the extended reals
  multiplication does not distribute over addition in general (an infinity spoils it); between real numbers it does,
  and a quotient by a nonzero real is a product with its inverse. Two arrangements of a normalised sum are joined here:
  divide the sum, or divide each weight first.

  The method is the same throughout: every operand is a real number read as an extended real, and that reading
  commutes with products, with finite sums and with a choice between a value and zero. So each side is the reading
  of one real expression, and the two real expressions are equal by the ordinary laws of a commutative ring.
-/
import Idealize.ShloMosaic.PureOps.Ideal
import Mathlib.Data.EReal.Operations
import Mathlib.Algebra.BigOperators.Group.Finset.Basic
import Mathlib.Algebra.BigOperators.Group.Finset.Piecewise
import Mathlib.Algebra.BigOperators.Ring.Finset

noncomputable section

namespace Cert.LibRealLaws

open Idealize.ShloMosaic

/-- A finite sum of real numbers, each read as an extended real, is the real sum read as an extended real.
    By induction on the index set: the empty sum is zero on both sides, and adding one more term is the
    statement that the reading respects a sum of two reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, EReal.coe_add, ih]

/-- A choice between a real number and zero, read as an extended real, is the choice between the readings. -/
theorem coe_ite_zero (p : Prop) [Decidable p] (r : ℝ) :
    (if p then ((r : ℝ) : EReal) else 0) = (((if p then r else 0) : ℝ) : EReal) := by
  by_cases hp : p
  · rw [if_pos hp, if_pos hp]
  · rw [if_neg hp, if_neg hp, EReal.coe_zero]

/-- The reciprocal of a nonzero real `g`, as an extended-real quotient `1 / g`, is the real number `1 / g`. -/
theorem div_one_coe {g : ℝ} (hg : g ≠ 0) : Ideal.div 1 ((g : ℝ) : EReal) = ((1 / g : ℝ) : EReal) := by
  rw [Ideal.div_coe hg, one_mul]

/-- THE POOLED MEAN. Dividing a weighted sum of real numbers by a nonzero real is summing with each weight divided
    first. Both sides are readings of real numbers: the left of `(∑ mask·x) · (1/c)`, the right of
    `∑ mask · (1/c) · x`; in the reals the factor `1/c` moves inside the sum. -/
theorem div_sum_mul {L : Type*} [Fintype L] (mask x : L → ℝ) (c : ℝ) (hc : c ≠ 0) :
    Ideal.div (∑ l, ((mask l : ℝ) : EReal) * ((x l : ℝ) : EReal)) ((c : ℝ) : EReal)
      = ∑ l, Ideal.div ((mask l : ℝ) : EReal) ((c : ℝ) : EReal) * ((x l : ℝ) : EReal) := by
  -- every quotient by `c` is a product with the real `1 / c`
  simp_rw [Ideal.div_coe hc, ← EReal.coe_mul]
  -- both sums are sums of readings of reals
  rw [coe_sum, coe_sum, ← EReal.coe_mul]
  congr 1
  -- in the reals: `(∑ mask·x) · (1/c) = ∑ mask · (1/c) · x`
  rw [Finset.sum_mul]
  exact Finset.sum_congr rfl fun l _ => by ring

/-- The real identity behind the adjacency law. A row that holds the constant `a` once for every edge from `s`
    into the row, applied to `x`, is `a` times the sum of `x` over the row's edges: exchange the two sums, and for
    a fixed edge the sum over `s` has its single nonzero term at `s = src e`. -/
theorem real_adj_mul {E S : Type*} [Fintype E] [Fintype S] [DecidableEq S]
    (hit : E → Prop) [DecidablePred hit] (src : E → S) (x : S → ℝ) (a : ℝ) :
    ∑ s, (∑ e, if hit e ∧ src e = s then a else 0) * x s = (∑ e, if hit e then x (src e) else 0) * a := by
  simp_rw [Finset.sum_mul]
  rw [Finset.sum_comm]
  refine Finset.sum_congr rfl fun e _ => ?_
  by_cases he : hit e
  · -- an edge of the row: only `s = src e` contributes, with `a · x (src e)`
    simp only [he, true_and, if_true, ite_mul, zero_mul, Finset.sum_ite_eq, Finset.mem_univ]
    exact mul_comm _ _
  · -- an edge of another row contributes nothing on either side
    simp only [he, false_and, if_false, zero_mul, Finset.sum_const_zero]

/-- THE NORMALISED ADJACENCY. Fix one destination row; `hit e` says edge `e` goes into it, `src e` is the node it
    comes from, `g` the row's degree (nonzero). The row of the dense matrix that holds `1 / g` once per edge from
    `s`, applied to the real features `x`, is the sum of the features over the row's edges divided by `g`.
    Both sides are readings of real numbers, and the real numbers agree by `real_adj_mul` with `a = 1 / g`. -/
theorem adj_mul_eq_segsum_div {E S : Type*} [Fintype E] [Fintype S] [DecidableEq S]
    (hit : E → Prop) [DecidablePred hit] (src : E → S) (x : S → ℝ) (g : ℝ) (hg : g ≠ 0) :
    ∑ s, (∑ e, if hit e ∧ src e = s then Ideal.div 1 ((g : ℝ) : EReal) else 0) * ((x s : ℝ) : EReal)
      = Ideal.div (∑ e, if hit e then ((x (src e) : ℝ) : EReal) else 0) ((g : ℝ) : EReal) := by
  -- the entry `1 / g` is a real number, and the quotient on the right is a product with it
  rw [div_one_coe hg, Ideal.div_coe hg]
  -- pull the reading out of the choices, the inner sums, the products and the outer sum
  simp_rw [coe_ite_zero, coe_sum, ← EReal.coe_mul, coe_sum]
  congr 1
  exact real_adj_mul hit src x (1 / g)

end Cert.LibRealLaws

end
-- ==== Proof.Algebra.lean ====
/-
  The two arrangements of the layer are one function of the argument arrays when the adjacency, the node inputs and the
  first weight hold real numbers.

  Two things separate them. Inside a hidden unit, one arrangement multiplies the aggregated input by the weight and the
  other multiplies every adjacency entry by the weight before summing: between real numbers a factor moves into a finite
  sum, and that is the only place where real numbers are needed. Outside, one arrangement adds the 8192 hidden units in
  eight runs of 1024 grouped as two halves, the other adds them all at once: addition of extended reals is commutative
  and associative, so any grouping gives the same total, infinite terms or not.
-/
import proofs.«175894_g2000004315035959_pallasbulk_646_4_alg».proof.Proof.Spec
import proofs.«175894_g2000004315035959_pallasbulk_646_4_alg».proof.Proof.LibRealLaws
import proofs.«175894_g2000004315035959_pallasbulk_646_4_alg».proof.Proof.LibBlockSum

noncomputable section

open scoped BigOperators

namespace Cert.Spec

open Idealize.ShloMosaic Idealize.ShloMosaic.ValueIdx

/-- The weight moves into the aggregate. With real entries a, x and a real weight w both sides read one real number:
    (sum over j of x j * a j) * w on the left, sum over j of x j * (a j * w) on the right, and in the reals the factor w
    distributes over the sum and the products reassociate. -/
theorem agg_mul_weight (A : FVec Ideal SA .f32) (X : FVec Ideal SX .f32) (W1 : FVec Ideal SW1 .f32)
    (hA : ∀ i, ∃ r : ℝ, A i = ((r : ℝ) : EReal)) (hX : ∀ i, ∃ r : ℝ, X i = ((r : ℝ) : EReal))
    (hW1 : ∀ i, ∃ r : ℝ, W1 i = ((r : ℝ) : EReal)) (b : Fin 512) (n : Fin 128) (f : Fin 64) :
    agg A X b n * W1 (ix2 0 f) = ∑ j : Fin 128, X (ix3 b j 0) * (A (ix2 n j) * W1 (ix2 0 f)) := by
  choose a ha using hA
  choose x hx using hX
  choose w hw using hW1
  unfold agg
  -- every entry is the reading of a real number
  simp only [ha, hx, hw]
  -- products of readings are readings of products, and so are finite sums
  simp_rw [← EReal.coe_mul]
  rw [LibRealLaws.coe_sum, LibRealLaws.coe_sum, ← EReal.coe_mul]
  congr 1
  -- in the reals
  rw [Finset.sum_mul]
  exact Finset.sum_congr rfl fun j _ => mul_assoc _ _ _

/-- So the two forms of a hidden unit agree: the same bias is added and the same maximum with zero is taken. -/
theorem hidK_eq_hidR (A : FVec Ideal SA .f32) (X : FVec Ideal SX .f32) (W1 B1 : FVec Ideal SW1 .f32)
    (hA : ∀ i, ∃ r : ℝ, A i = ((r : ℝ) : EReal)) (hX : ∀ i, ∃ r : ℝ, X i = ((r : ℝ) : EReal))
    (hW1 : ∀ i, ∃ r : ℝ, W1 i = ((r : ℝ) : EReal)) (b : Fin 512) (g : Fin 8192) :
    hidK A X W1 B1 b g = hidR A X W1 B1 b g := by
  unfold hidK hidR
  rw [agg_mul_weight A X W1 hA hX hW1]

/-- 8192 = 8 * 1024. -/
theorem eight_blocks : 8 * 1024 = 8192 := by norm_num

/-- Entry r of block t of the 8 blocks of 1024 is hidden unit r of chunk t: 1024 * t + r = t * 1024 + r. -/
theorem blockIdx_eq_hidIdx (t : Fin 8) (r : Fin 1024) :
    LibBlockSum.blockIdx eight_blocks t r = hidIdx t r :=
  Fin.ext (by
    show 1024 * t.val + r.val = t.val * 1024 + r.val
    rw [Nat.mul_comm])

/-- A chunk's contribution is the block's share of the sum over all hidden units, in the folded form. -/
theorem chunk_eq_block (A : FVec Ideal SA .f32) (X : FVec Ideal SX .f32) (W1 B1 : FVec Ideal SW1 .f32)
    (W2 : FVec Ideal SW2 .f32)
    (hA : ∀ i, ∃ r : ℝ, A i = ((r : ℝ) : EReal)) (hX : ∀ i, ∃ r : ℝ, X i = ((r : ℝ) : EReal))
    (hW1 : ∀ i, ∃ r : ℝ, W1 i = ((r : ℝ) : EReal)) (kg : Fin 8) (b : Fin 512) (y : Fin 640) :
    chunk A X W1 B1 W2 kg b y
      = ∑ r : Fin 1024, (fun g : Fin 8192 => hidR A X W1 B1 b g * W2 (ix2 g y)) (LibBlockSum.blockIdx eight_blocks kg r) := by
  unfold chunk
  refine Finset.sum_congr rfl fun r _ => ?_
  rw [blockIdx_eq_hidIdx, hidK_eq_hidR A X W1 B1 hA hX hW1]

/-- Entry by entry: the chunked total is the total taken at once. -/
theorem gker_eq_gref (A : FVec Ideal SA .f32) (X : FVec Ideal SX .f32) (W1 B1 : FVec Ideal SW1 .f32)
    (W2 : FVec Ideal SW2 .f32) (B2 : FVec Ideal SB2 .f32)
    (hA : ∀ i, ∃ r : ℝ, A i = ((r : ℝ) : EReal)) (hX : ∀ i, ∃ r : ℝ, X i = ((r : ℝ) : EReal))
    (hW1 : ∀ i, ∃ r : ℝ, W1 i = ((r : ℝ) : EReal)) (b : Fin 512) (y : Fin 640) :
    gker A X W1 B1 W2 B2 b y = gref A X W1 B1 W2 B2 b y := by
  unfold gker gref part
  -- the bias is the same on both sides
  congr 1
  -- the chunks of the two halves are chunks 0..3 and 4..7
  have c00 : chunkOf 0 0 = (0 : Fin 8) := rfl
  have c01 : chunkOf 0 1 = (1 : Fin 8) := rfl
  have c02 : chunkOf 0 2 = (2 : Fin 8) := rfl
  have c03 : chunkOf 0 3 = (3 : Fin 8) := rfl
  have c10 : chunkOf 1 0 = (4 : Fin 8) := rfl
  have c11 : chunkOf 1 1 = (5 : Fin 8) := rfl
  have c12 : chunkOf 1 2 = (6 : Fin 8) := rfl
  have c13 : chunkOf 1 3 = (7 : Fin 8) := rfl
  rw [c00, c01, c02, c03, c10, c11, c12, c13]
  -- the sum over all hidden units, block by block, written out over the eight blocks
  rw [LibBlockSum.sum_blocks eight_blocks (fun g : Fin 8192 => hidR A X W1 B1 b g * W2 (ix2 g y)),
    Fin.sum_univ_eight]
  -- each chunk is its block's share
  simp only [chunk_eq_block A X W1 B1 W2 hA hX hW1]
  -- the same eight terms in the same order: only the grouping differs
  simp only [add_assoc]

theorem Gker_eq_Gref (A : FVec Ideal SA .f32) (X : FVec Ideal SX .f32) (W1 B1 : FVec Ideal SW1 .f32)
    (W2 : FVec Ideal SW2 .f32) (B2 : FVec Ideal SB2 .f32)
    (hA : ∀ i, ∃ r : ℝ, A i = ((r : ℝ) : EReal)) (hX : ∀ i, ∃ r : ℝ, X i = ((r : ℝ) : EReal))
    (hW1 : ∀ i, ∃ r : ℝ, W1 i = ((r : ℝ) : EReal)) :
    Gker A X W1 B1 W2 B2 = Gref A X W1 B1 W2 B2 :=
  funext fun i => gker_eq_gref A X W1 B1 W2 B2 hA hX hW1 (i 0) (i 1)

end Cert.Spec

end
-- ==== Proof.Finite.lean ====
/-
  Under the precondition every entry of the adjacency, of the node inputs and of the first weight is a real number.
-/
import proofs.«175894_g2000004315035959_pallasbulk_646_4_alg».proof.Defs
import Idealize.ShloMosaic.Lib.ReduceAll

noncomputable section

namespace Cert.Proof.Finite

open Idealize.ShloMosaic Idealize.SL.Sem

/-- The shape with no axes has exactly one index. -/
instance : Subsingleton Cert.Pre_finite_inputs.S_.Idx := ⟨fun a b => funext fun d => d.elim0⟩

/-- An extended real whose absolute value, max x (-x), lies strictly below +∞ is a real number:
    +∞ has absolute value +∞, and so has -∞. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- One conjunct of the precondition read back: if the test |x| < +∞, taken entry by entry and folded by
    "and" over all axes, comes out true, then every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1) (i : s.Idx) :
    ∃ r : ℝ, x i = (r : EReal) := by
  have h1 := Host.reduce_andi_all _ _ hr hu j e i
  exact real_of_abs_lt (x i) h1

theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal)) := by
  have h0 := congrFun (h c) (fun a => a.elim0 : Cert.Pre_finite_inputs.S_.Idx)
  dsimp only [Cert.Pre_finite_inputs.fn, Cert.Pre_finite_inputs.fn_part1, Idealize.ShloMosaic.andi] at h0
  -- the six tests are joined as ((((t0 and t1) and t2) and t3) and t4) and t5: peel off t5, t4, t3
  obtain ⟨h1, -⟩ := IntOp.andi_eq_one.1 h0
  obtain ⟨h2, -⟩ := IntOp.andi_eq_one.1 h1
  obtain ⟨h3, -⟩ := IntOp.andi_eq_one.1 h2
  obtain ⟨h4, e2⟩ := IntOp.andi_eq_one.1 h3
  obtain ⟨e0, e1⟩ := IntOp.andi_eq_one.1 h4
  exact ⟨real_of_all _ _ _ _ _ e0, real_of_all _ _ _ _ _ e1, real_of_all _ _ _ _ _ e2⟩

end Cert.Proof.Finite

end
-- ==== Proof.lean ====
/-
  A graph-convolution layer followed by a linear layer, computed two ways.

  The kernel aggregates first (agg b n = sum over j of X b j * A n j, kept in a scratch buffer across grid points), scales
  the aggregate by the first weight on the fly, cuts the 8192 hidden units into 8 chunks of 1024 that it accumulates into
  the output block over the second grid axis, and adds the two halves and the bias on the host. The reference folds the
  first weight into the adjacency on the host and takes the sum over all hidden units in one kernel call.

  * The three frames: the kernel's (at the word level and at the extended reals, one text) from the body's two cases, the
    point that recomputes the aggregate and the point that accumulates, with the scratch's contents carried by the
    invariant; the reference's is generated.
  * No operation was rewritten between the kernel and its idealization.
  * At the extended reals the kernel's result is the chunk-by-chunk arrangement of the argument arrays and the
    reference's the all-at-once arrangement; the two agree when the adjacency, the node inputs and the first weight are
    real numbers (the weight moves inside the sum over j, which needs distributivity), and the precondition makes them so.
-/
import proofs.«175894_g2000004315035959_pallasbulk_646_4_alg».proof.Defs
import proofs.«175894_g2000004315035959_pallasbulk_646_4_alg».proof.Proof.Gen.Kernel
import proofs.«175894_g2000004315035959_pallasbulk_646_4_alg».proof.Proof.Gen.KernelIdeal
import proofs.«175894_g2000004315035959_pallasbulk_646_4_alg».proof.Proof.Gen.ReferenceIdeal
import proofs.«175894_g2000004315035959_pallasbulk_646_4_alg».proof.Proof.Gen.ReferenceIdeal.Frame
import proofs.«175894_g2000004315035959_pallasbulk_646_4_alg».proof.Proof.Gen.Pre_finite_inputs
import proofs.«175894_g2000004315035959_pallasbulk_646_4_alg».proof.Proof.RunK
import proofs.«175894_g2000004315035959_pallasbulk_646_4_alg».proof.Proof.KerValue
import proofs.«175894_g2000004315035959_pallasbulk_646_4_alg».proof.Proof.RefValue
import proofs.«175894_g2000004315035959_pallasbulk_646_4_alg».proof.Proof.Algebra
import proofs.«175894_g2000004315035959_pallasbulk_646_4_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Proof.KB.frame m ρ
theorem frame_ki : Cert.frame_KernelIdeal := fun m ρ _ => Cert.Proof.KI.frame m ρ
theorem frame_ri : Cert.frame_ReferenceIdeal := fun m ρ _ => Cert.ReferenceIdeal.Gen.frame m ρ

/-- Both programs run; the kernel's result is the chunk-by-chunk arrangement of the arguments, the reference's the
    all-at-once arrangement of arguments that agree with the kernel's, and under the precondition the two are equal. -/
theorem algebraic : Cert.algebraic_KernelIdeal_ReferenceIdeal := by
  intro m ρ m' ρ' hpre hagree
  refine ⟨_, Cert.Proof.KerValue.run m ρ, ?_⟩
  refine (θ_run Cert.ReferenceIdeal.defs _ _).mono (fun _ h c => ⟨(h c).1.trans ?_, (h c).2⟩)
    (Cert.Proof.RefValue.run m' ρ')
  obtain ⟨hA, hX, hW1⟩ := Cert.Proof.Finite.real_of_pre m hpre c
  rw [(hagree c).1, (hagree c).2.1, (hagree c).2.2.1, (hagree c).2.2.2.1, (hagree c).2.2.2.2.1, (hagree c).2.2.2.2.2]
  exact (Cert.Spec.Gker_eq_Gref _ _ _ _ _ _ hA hX hW1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
